-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x10000x2 : Shape := ⟨4, ![4, 16, 10000, 2]⟩
abbrev S4x16x100000x2 : Shape := ⟨4, ![4, 16, 100000, 2]⟩
abbrev S100000x2 : Shape := ⟨2, ![100000, 2]⟩
abbrev S_ : Shape := ⟨0, ![]⟩

class Facts : Prop where
  bcast_S_S4x16x10000x2 : S_.BroadcastsInDim S4x16x10000x2 (![] : Fin 0 → Fin S4x16x10000x2.rank)
  reducesTo_S4x16x10000x2_S_d0_1_2_3 : S4x16x10000x2.ReducesTo [0, 1, 2, 3] S_
  h_S_ : 0 < S_.numel
  bcast_S_S4x16x100000x2 : S_.BroadcastsInDim S4x16x100000x2 (![] : Fin 0 → Fin S4x16x100000x2.rank)
  reducesTo_S4x16x100000x2_S_d0_1_2_3 : S4x16x100000x2.ReducesTo [0, 1, 2, 3] S_
  bcast_S_S100000x2 : S_.BroadcastsInDim S100000x2 (![] : Fin 0 → Fin S100000x2.rank)
  reducesTo_S100000x2_S_d0_1 : S100000x2.ReducesTo [0, 1] S_

variable [Facts]

def fn_part1 {F : FTy → Type} [FloatOps F] (main_arg4 : IVec S100000x2 32) (main_arg5 : FVec F S100000x2 .f32) (main_v13 : IVec S_ 1) (main_v16 : IVec S4x16x100000x2 1) : IVec S_ 1 :=
  let main_c_5 : IVec S_ 1 := constantI S_ 1 1#1
  let main_v17 : IVec S_ 1 := (fun x v => Host.reduce IntOp.andi x v reducesTo_S4x16x100000x2_S_d0_1_2_3 h_S_) main_v16 main_c_5
  let main_v18 : IVec S_ 1 := andi main_v13 main_v17
  let main_v19 : FVec F S100000x2 .f32 := Host.absf main_arg5
  let main_cst_6 : FVec F S_ .f32 := constant S_ .f32 0x7F800000#32
  let main_v20 : FVec F S100000x2 .f32 := broadcastInDim S100000x2 ![] bcast_S_S100000x2 main_cst_6
  let main_v21 : IVec S100000x2 1 := cmpf .olt main_v19 main_v20
  let main_c_7 : IVec S_ 1 := constantI S_ 1 1#1
  let main_v22 : IVec S_ 1 := (fun x v => Host.reduce IntOp.andi x v reducesTo_S100000x2_S_d0_1 h_S_) main_v21 main_c_7
  let main_v23 : IVec S_ 1 := andi main_v18 main_v22
  let main_c_8 : IVec S_ 32 := constantI S_ 32 0#32
  let main_v24 : IVec S100000x2 32 := broadcastInDim S100000x2 ![] bcast_S_S100000x2 main_c_8
  let main_v25 : IVec S100000x2 1 := cmpi .sge main_arg4 main_v24
  let main_c_9 : IVec S_ 32 := constantI S_ 32 10000#32
  let main_v26 : IVec S100000x2 32 := broadcastInDim S100000x2 ![] bcast_S_S100000x2 main_c_9
  let main_v27 : IVec S100000x2 1 := cmpi .slt main_arg4 main_v26
  let main_v28 : IVec S100000x2 1 := andi main_v25 main_v27
  let main_c_10 : IVec S_ 1 := constantI S_ 1 1#1
  let main_v29 : IVec S_ 1 := (fun x v => Host.reduce IntOp.andi x v reducesTo_S100000x2_S_d0_1 h_S_) main_v28 main_c_10
  let main_v30 : IVec S_ 1 := andi main_v23 main_v29
  main_v30

def fn {F : FTy → Type} [FloatOps F] (main_arg0 : FVec F S4x16x10000x2 .f32) (main_arg1 : FVec F S4x16x100000x2 .f32) (main_arg2 : FVec F S4x16x10000x2 .f32) (main_arg3 : FVec F S4x16x100000x2 .f32) (main_arg4 : IVec S100000x2 32) (main_arg5 : FVec F S100000x2 .f32) : IVec S_ 1 :=
  let main_v0 : FVec F S4x16x10000x2 .f32 := Host.absf main_arg0
  let main_cst : FVec F S_ .f32 := constant S_ .f32 0x7F800000#32
  let main_v1 : FVec F S4x16x10000x2 .f32 := broadcastInDim S4x16x10000x2 ![] bcast_S_S4x16x10000x2 main_cst
  let main_v2 : IVec S4x16x10000x2 1 := cmpf .olt main_v0 main_v1
  let main_c : IVec S_ 1 := constantI S_ 1 1#1
  let main_v3 : IVec S_ 1 := (fun x v => Host.reduce IntOp.andi x v reducesTo_S4x16x10000x2_S_d0_1_2_3 h_S_) main_v2 main_c
  let main_v4 : FVec F S4x16x100000x2 .f32 := Host.absf main_arg1
  let main_cst_0 : FVec F S_ .f32 := constant S_ .f32 0x7F800000#32
  let main_v5 : FVec F S4x16x100000x2 .f32 := broadcastInDim S4x16x100000x2 ![] bcast_S_S4x16x100000x2 main_cst_0
  let main_v6 : IVec S4x16x100000x2 1 := cmpf .olt main_v4 main_v5
  let main_c_1 : IVec S_ 1 := constantI S_ 1 1#1
  let main_v7 : IVec S_ 1 := (fun x v => Host.reduce IntOp.andi x v reducesTo_S4x16x100000x2_S_d0_1_2_3 h_S_) main_v6 main_c_1
  let main_v8 : IVec S_ 1 := andi main_v3 main_v7
  let main_v9 : FVec F S4x16x10000x2 .f32 := Host.absf main_arg2
  let main_cst_2 : FVec F S_ .f32 := constant S_ .f32 0x7F800000#32
  let main_v10 : FVec F S4x16x10000x2 .f32 := broadcastInDim S4x16x10000x2 ![] bcast_S_S4x16x10000x2 main_cst_2
  let main_v11 : IVec S4x16x10000x2 1 := cmpf .olt main_v9 main_v10
  let main_c_3 : IVec S_ 1 := constantI S_ 1 1#1
  let main_v12 : IVec S_ 1 := (fun x v => Host.reduce IntOp.andi x v reducesTo_S4x16x10000x2_S_d0_1_2_3 h_S_) main_v11 main_c_3
  let main_v13 : IVec S_ 1 := andi main_v8 main_v12
  let main_v14 : FVec F S4x16x100000x2 .f32 := Host.absf main_arg3
  let main_cst_4 : FVec F S_ .f32 := constant S_ .f32 0x7F800000#32
  let main_v15 : FVec F S4x16x100000x2 .f32 := broadcastInDim S4x16x100000x2 ![] bcast_S_S4x16x100000x2 main_cst_4
  let main_v16 : IVec S4x16x100000x2 1 := cmpf .olt main_v14 main_v15
  fn_part1 (F := F) main_arg4 main_arg5 main_v13 main_v16
-- ==== Kernel.lean ====
abbrev S4x16x10000x2 : Shape := ⟨4, ![4, 16, 10000, 2]⟩
abbrev S4x16x100000x2 : Shape := ⟨4, ![4, 16, 100000, 2]⟩
abbrev S100000x2 : Shape := ⟨2, ![100000, 2]⟩
abbrev S10000x2x4x16 : Shape := ⟨4, ![10000, 2, 4, 16]⟩
abbrev S10000x128 : Shape := ⟨2, ![10000, 128]⟩
abbrev S100000x1 : Shape := ⟨2, ![100000, 1]⟩
abbrev S100000 : Shape := ⟨1, ![100000]⟩
abbrev S_ : Shape := ⟨0, ![]⟩
abbrev S1 : Shape := ⟨1, ![1]⟩
abbrev S1x1 : Shape := ⟨2, ![1, 1]⟩
abbrev S100000x128 : Shape := ⟨2, ![100000, 128]⟩
abbrev S100000x2x4x16 : Shape := ⟨4, ![100000, 2, 4, 16]⟩
abbrev S2x1x128 : Shape := ⟨3, ![2, 1, 128]⟩
abbrev S5000x128 : Shape := ⟨2, ![5000, 128]⟩
abbrev S1x1x128 : Shape := ⟨3, ![1, 1, 128]⟩
abbrev S1x128 : Shape := ⟨2, ![1, 128]⟩
abbrev S5000x64 : Shape := ⟨2, ![5000, 64]⟩
abbrev S64 : Shape := ⟨1, ![64]⟩
abbrev S1x64 : Shape := ⟨2, ![1, 64]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 145
  | .vmem => 13
  | .smem => 0
  | _ => 0

abbrev hbmTy0_0 (i : Nat) : BufTy := match i % 128 with
  | 0 => ⟨S4x16x10000x2, .f32⟩
  | 1 => ⟨S4x16x100000x2, .f32⟩
  | 2 => ⟨S4x16x10000x2, .f32⟩
  | 3 => ⟨S4x16x100000x2, .f32⟩
  | 4 => ⟨S100000x2, .i32⟩
  | 5 => ⟨S100000x2, .f32⟩
  | 6 => ⟨S4x16x10000x2, .f32⟩
  | 7 => ⟨S10000x2x4x16, .f32⟩
  | 8 => ⟨S10000x128, .f32⟩
  | 9 => ⟨S10000x2x4x16, .f32⟩
  | 10 => ⟨S10000x128, .f32⟩
  | 11 => ⟨S100000x1, .i32⟩
  | 12 => ⟨S100000, .i32⟩
  | 13 => ⟨S100000x1, .i32⟩
  | 14 => ⟨S100000, .i32⟩
  | 15 => ⟨S100000x1, .f32⟩
  | 16 => ⟨S100000, .f32⟩
  | 17 => ⟨S_, .f32⟩
  | 18 => ⟨S100000, .f32⟩
  | 19 => ⟨S100000, .i1⟩
  | 20 => ⟨S100000x1, .i1⟩
  | 21 => ⟨S100000x1, .f32⟩
  | 22 => ⟨S100000, .f32⟩
  | 23 => ⟨S_, .f32⟩
  | 24 => ⟨S100000, .f32⟩
  | 25 => ⟨S100000, .i1⟩
  | 26 => ⟨S100000x1, .i1⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S1, .i32⟩
  | 36 => ⟨S_, .i32⟩
  | 37 => ⟨S100000x1, .i32⟩
  | 38 => ⟨S100000x1, .i1⟩
  | 39 => ⟨S1x1, .i32⟩
  | 40 => ⟨S100000x1, .i32⟩
  | 41 => ⟨S100000x1, .i1⟩
  | 42 => ⟨S100000x1, .i1⟩
  | 43 => ⟨S_, .i1⟩
  | 44 => ⟨S100000, .i1⟩
  | 45 => ⟨S100000x128, .f32⟩
  | 46 => ⟨S100000x128, .i1⟩
  | 47 => ⟨S_, .f32⟩
  | 48 => ⟨S100000x128, .f32⟩
  | 49 => ⟨S100000x128, .f32⟩
  | 50 => ⟨S_, .f32⟩
  | 51 => ⟨S100000x128, .i1⟩
  | 52 => ⟨S100000x128, .f32⟩
  | 53 => ⟨S100000x128, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S1, .i32⟩
  | 63 => ⟨S_, .i32⟩
  | 64 => ⟨S100000x1, .i32⟩
  | 65 => ⟨S100000x1, .i1⟩
  | 66 => ⟨S1x1, .i32⟩
  | 67 => ⟨S100000x1, .i32⟩
  | 68 => ⟨S100000x1, .i1⟩
  | 69 => ⟨S100000x1, .i1⟩
  | 70 => ⟨S_, .i1⟩
  | 71 => ⟨S100000, .i1⟩
  | 72 => ⟨S100000x128, .f32⟩
  | 73 => ⟨S100000x128, .i1⟩
  | 74 => ⟨S_, .f32⟩
  | 75 => ⟨S100000x128, .f32⟩
  | 76 => ⟨S100000x128, .f32⟩
  | 77 => ⟨S_, .f32⟩
  | 78 => ⟨S100000x128, .i1⟩
  | 79 => ⟨S100000x128, .f32⟩
  | 80 => ⟨S100000x128, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S1, .i32⟩
  | 90 => ⟨S_, .i32⟩
  | 91 => ⟨S100000x1, .i32⟩
  | 92 => ⟨S100000x1, .i1⟩
  | 93 => ⟨S1x1, .i32⟩
  | 94 => ⟨S100000x1, .i32⟩
  | 95 => ⟨S100000x1, .i1⟩
  | 96 => ⟨S100000x1, .i1⟩
  | 97 => ⟨S_, .i1⟩
  | 98 => ⟨S100000, .i1⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S_, .f32⟩
  | 105 => ⟨S100000x128, .i1⟩
  | 106 => ⟨S100000x128, .f32⟩
  | 107 => ⟨S100000x128, .f32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S1, .i32⟩
  | 117 => ⟨S_, .i32⟩
  | 118 => ⟨S100000x1, .i32⟩
  | 119 => ⟨S100000x1, .i1⟩
  | 120 => ⟨S1x1, .i32⟩
  | 121 => ⟨S100000x1, .i32⟩
  | 122 => ⟨S100000x1, .i1⟩
  | 123 => ⟨S100000x1, .i1⟩
  | 124 => ⟨S_, .i1⟩
  | 125 => ⟨S100000, .i1⟩
  | 126 => ⟨S100000x128, .f32⟩
  | 127 => ⟨S100000x128, .i1⟩
  | _ => ⟨S4x16x10000x2, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S100000x128, .i1⟩
  | 5 => ⟨S100000x128, .f32⟩
  | 6 => ⟨S100000x128, .f32⟩
  | 7 => ⟨S4x16x100000x2, .f32⟩
  | 8 => ⟨S100000x2x4x16, .f32⟩
  | 9 => ⟨S100000x128, .f32⟩
  | 10 => ⟨S2x1x128, .f32⟩
  | 11 => ⟨S2x1x1, .f32⟩
  | 12 => ⟨S2, .f32⟩
  | 13 => ⟨S_, .f32⟩
  | 14 => ⟨S_, .f32⟩
  | 15 => ⟨S_, .f32⟩
  | 16 => ⟨S_, .f32⟩
  | _ => ⟨S4x16x10000x2, .f32⟩

abbrev hbmTy (i : Nat) : BufTy := match i / 128 with
  | 0 => hbmTy0_0 i
  | 1 => hbmTy0_1 i
  | _ => ⟨S4x16x10000x2, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | _, _ => ⟨S4x16x10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v19 : Ref sig .tc := ⟨.hbm, 49, rfl⟩
abbrev main_cst_1 : Ref sig .tc := ⟨.hbm, 50, rfl⟩
abbrev main_call1_v0 : Ref sig .tc := ⟨.hbm, 51, rfl⟩
abbrev main_call1_v1 : Ref sig .tc := ⟨.hbm, 52, rfl⟩
abbrev main_v20 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v21 : Ref sig .tc := ⟨.hbm, 76, rfl⟩
abbrev main_cst_2 : Ref sig .tc := ⟨.hbm, 77, rfl⟩
abbrev main_call3_v0 : Ref sig .tc := ⟨.hbm, 78, rfl⟩
abbrev main_call3_v1 : Ref sig .tc := ⟨.hbm, 79, rfl⟩
abbrev main_v22 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_call4_cst : Ref sig .tc := ⟨.hbm, 101, rfl⟩
abbrev main_call4_v15 : Ref sig .tc := ⟨.hbm, 102, rfl⟩
abbrev main_v23 : Ref sig .tc := ⟨.hbm, 103, rfl⟩
abbrev main_cst_3 : Ref sig .tc := ⟨.hbm, 104, rfl⟩
abbrev main_call5_v0 : Ref sig .tc := ⟨.hbm, 105, rfl⟩
abbrev main_call5_v1 : Ref sig .tc := ⟨.hbm, 106, rfl⟩
abbrev main_v24 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_c_1 : Ref sig .tc := ⟨.hbm, 116, rfl⟩
abbrev main_call6_c_2 : Ref sig .tc := ⟨.hbm, 117, rfl⟩
abbrev main_call6_v6 : Ref sig .tc := ⟨.hbm, 118, rfl⟩
abbrev main_call6_v7 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_3 : Ref sig .tc := ⟨.hbm, 124, rfl⟩
abbrev main_call6_v12 : Ref sig .tc := ⟨.hbm, 125, rfl⟩
abbrev main_call6_v13 : Ref sig .tc := ⟨.hbm, 126, rfl⟩
abbrev main_call6_v14 : Ref sig .tc := ⟨.hbm, 127, rfl⟩
abbrev main_call6_cst : Ref sig .tc := ⟨.hbm, 128, rfl⟩
abbrev main_call6_v15 : Ref sig .tc := ⟨.hbm, 129, rfl⟩
abbrev main_v25 : Ref sig .tc := ⟨.hbm, 130, rfl⟩
abbrev main_cst_4 : Ref sig .tc := ⟨.hbm, 131, rfl⟩
abbrev main_call7_v0 : Ref sig .tc := ⟨.hbm, 132, rfl⟩
abbrev main_call7_v1 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_cst_5 : Ref sig .tc := ⟨.hbm, 141, rfl⟩
abbrev main_v33 : Ref sig .tc := ⟨.hbm, 142, rfl⟩
abbrev main_cst_6 : Ref sig .tc := ⟨.hbm, 143, rfl⟩
abbrev main_v34 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v55 : BitVec 1 := Scalar.cmpi .eq arg1 c9_i32
  let v56 : BitVec 32 := Scalar.extui v55
  let c0_i32_18 : BitVec 32 := 0#32
  let v57 : BitVec 1 := Scalar.cmpi .ne v56 c0_i32_18
  v57

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4x16x10000x2_S10000x2x4x16_2_3_0_1 : S4x16x10000x2.Transposes [2, 3, 0, 1] S10000x2x4x16
  shapeCasts_S10000x2x4x16_S10000x128 : S10000x2x4x16.ShapeCasts S10000x128
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S4x16x100000x2_S100000x2x4x16_2_3_0_1 : S4x16x100000x2.Transposes [2, 3, 0, 1] S100000x2x4x16
  shapeCasts_S100000x2x4x16_S100000x128 : S100000x2x4x16.ShapeCasts S100000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x64 : S5000x128.Slices ![0, 0] S5000x64
  slices_S5000x128_o0_64_S5000x64 : S5000x128.Slices ![0, 64] S5000x64
  reduces_S5000x64_S64 : S5000x64.Reduces [0] S64
  shapeCasts_S64_S1x64 : S64.ShapeCasts S1x64
  inb_S1x128_S1x64_0_0 : ∀ a, (![0, 0] : Fin 2 → Nat) a + S1x64.size a ≤ S1x128.size a
  h_S1x64 : 0 < S1x64.numel
  shapeCasts_S1x64_S1x64 : S1x64.ShapeCasts S1x64
  inb_S1x128_S1x64_0_64 : ∀ a, (![0, 64] : Fin 2 → Nat) a + S1x64.size a ≤ S1x128.size a
  shapeCasts_S1x128_S1x1x128 : S1x128.ShapeCasts S1x1x128
  reduces_S1x1x128_S1 : S1x1x128.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  gather_S10000x128_S100000x1_S100000x128_1_0_n_n_0_1_1128_wf : GatherDims.WF S10000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x16x10000x2 : Shape := ⟨4, ![4, 16, 10000, 2]⟩
abbrev S4x16x100000x2 : Shape := ⟨4, ![4, 16, 100000, 2]⟩
abbrev S100000x2 : Shape := ⟨2, ![100000, 2]⟩
abbrev S100000x1 : Shape := ⟨2, ![100000, 1]⟩
abbrev S100000 : Shape := ⟨1, ![100000]⟩
abbrev S_ : Shape := ⟨0, ![]⟩
abbrev S1x1x100000x1 : Shape := ⟨4, ![1, 1, 100000, 1]⟩
abbrev S4x16x100000x1 : Shape := ⟨4, ![4, 16, 100000, 1]⟩
abbrev S4x16x100000 : Shape := ⟨3, ![4, 16, 100000]⟩

abbrev nBuf : Space → Nat
  | .hbm => 119
  | .vmem => 0
  | .smem => 0
  | _ => 0

abbrev bufTy : (tb : Table) → Fin (tcTables nBuf tb) → BufTy
  | .hbm, ⟨0, _⟩ => ⟨S4x16x10000x2, .f32⟩
  | .hbm, ⟨1, _⟩ => ⟨S4x16x100000x2, .f32⟩
  | .hbm, ⟨2, _⟩ => ⟨S4x16x10000x2, .f32⟩
  | .hbm, ⟨3, _⟩ => ⟨S4x16x100000x2, .f32⟩
  | .hbm, ⟨4, _⟩ => ⟨S100000x2, .i32⟩
  | .hbm, ⟨5, _⟩ => ⟨S100000x2, .f32⟩
  | .hbm, ⟨6, _⟩ => ⟨S4x16x10000x2, .f32⟩
  | .hbm, ⟨7, _⟩ => ⟨S4x16x100000x2, .f32⟩
  | .hbm, ⟨8, _⟩ => ⟨S100000x1, .i32⟩
  | .hbm, ⟨9, _⟩ => ⟨S100000, .i32⟩
  | .hbm, ⟨10, _⟩ => ⟨S100000x1, .i32⟩
  | .hbm, ⟨11, _⟩ => ⟨S100000, .i32⟩
  | .hbm, ⟨12, _⟩ => ⟨S100000x1, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S1x1x100000x1, .i1⟩
  | .hbm, ⟨18, _⟩ => ⟨S100000x1, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S1x1x100000x1, .i1⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S4x16x100000x2, .f32⟩
  | .hbm, ⟨33, _⟩ => ⟨S_, .f32⟩
  | .hbm, ⟨34, _⟩ => ⟨S4x16x100000x2, .i1⟩
  | .hbm, ⟨35, _⟩ => ⟨S4x16x100000x2, .f32⟩
  | .hbm, ⟨36, _⟩ => ⟨S4x16x100000x2, .f32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S4x16x100000x2, .f32⟩
  | .hbm, ⟨46, _⟩ => ⟨S_, .f32⟩
  | .hbm, ⟨47, _⟩ => ⟨S4x16x100000x2, .i1⟩
  | .hbm, ⟨48, _⟩ => ⟨S4x16x100000x2, .f32⟩
  | .hbm, ⟨49, _⟩ => ⟨S4x16x100000x2, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S4x16x100000x2, .f32⟩
  | .hbm, ⟨59, _⟩ => ⟨S_, .f32⟩
  | .hbm, ⟨60, _⟩ => ⟨S4x16x100000x2, .i1⟩
  | .hbm, ⟨61, _⟩ => ⟨S4x16x100000x2, .f32⟩
  | .hbm, ⟨62, _⟩ => ⟨S4x16x100000x2, .f32⟩
  | .hbm, ⟨63, _⟩ => ⟨S_, .i32⟩
  | .hbm, ⟨64, _⟩ => ⟨S100000, .i32⟩
  | .hbm, ⟨65, _⟩ => ⟨S100000, .i1⟩
  | .hbm, ⟨66, _⟩ => ⟨S_, .i32⟩
  | .hbm, ⟨67, _⟩ => ⟨S100000, .i32⟩
  | .hbm, ⟨68, _⟩ => ⟨S100000, .i32⟩
  | .hbm, ⟨69, _⟩ => ⟨S100000, .i32⟩
  | .hbm, ⟨70, _⟩ => ⟨S100000x1, .i32⟩
  | .hbm, ⟨71, _⟩ => ⟨S4x16x100000x2, .f32⟩
  | .hbm, ⟨72, _⟩ => ⟨S_, .f32⟩
  | .hbm, ⟨73, _⟩ => ⟨S4x16x100000x2, .i1⟩
  | .hbm, ⟨74, _⟩ => ⟨S4x16x100000x2, .f32⟩
  | .hbm, ⟨75, _⟩ => ⟨S4x16x100000x2, .f32⟩
  | .hbm, ⟨76, _⟩ => ⟨S4x16x100000x1, .f32⟩
  | .hbm, ⟨77, _⟩ => ⟨S4x16x100000, .f32⟩
  | .hbm, ⟨78, _⟩ => ⟨S4x16x100000x1, .f32⟩
  | .hbm, ⟨79, _⟩ => ⟨S4x16x100000, .f32⟩
  | .hbm, ⟨80, _⟩ => ⟨S4x16x100000x1, .f32⟩
  | .hbm, ⟨81, _⟩ => ⟨S4x16x100000, .f32⟩
  | .hbm, ⟨82, _⟩ => ⟨S4x16x100000x1, .f32⟩
  | .hbm, ⟨83, _⟩ => ⟨S4x16x100000, .f32⟩
  | .hbm, ⟨84, _⟩ => ⟨S4x16x100000, .f32⟩
  | .hbm, ⟨85, _⟩ => ⟨S4x16x100000, .f32⟩
  | .hbm, ⟨86, _⟩ => ⟨S4x16x100000, .f32⟩
  | .hbm, ⟨87, _⟩ => ⟨S4x16x100000, .f32⟩
  | .hbm, ⟨88, _⟩ => ⟨S4x16x100000, .f32⟩
  | .hbm, ⟨89, _⟩ => ⟨S4x16x100000, .f32⟩
  | .hbm, ⟨90, _⟩ => ⟨S4x16x100000x1, .f32⟩
  | .hbm, ⟨91, _⟩ => ⟨S4x16x100000x1, .f32⟩
  | .hbm, ⟨92, _⟩ => ⟨S4x16x100000x2, .f32⟩
  | .hbm, ⟨93, _⟩ => ⟨S4x16x100000x2, .f32⟩
  | .hbm, ⟨94, _⟩ => ⟨S4x16x100000x1, .f32⟩
  | .hbm, ⟨95, _⟩ => ⟨S4x16x100000, .f32⟩
  | .hbm, ⟨96, _⟩ => ⟨S4x16x100000x1, .f32⟩
  | .hbm, ⟨97, _⟩ => ⟨S4x16x100000, .f32⟩
  | .hbm, ⟨98, _⟩ => ⟨S4x16x100000x1, .f32⟩
  | .hbm, ⟨99, _⟩ => ⟨S4x16x100000, .f32⟩
  | .hbm, ⟨100, _⟩ => ⟨S4x16x100000x1, .f32⟩
  | .hbm, ⟨101, _⟩ => ⟨S4x16x100000, .f32⟩
  | .hbm, ⟨102, _⟩ => ⟨S4x16x100000, .f32⟩
  | .hbm, ⟨103, _⟩ => ⟨S4x16x100000, .f32⟩
  | .hbm, ⟨104, _⟩ => ⟨S4x16x100000, .f32⟩
  | .hbm, ⟨105, _⟩ => ⟨S4x16x100000, .f32⟩
  | .hbm, ⟨106, _⟩ => ⟨S4x16x100000, .f32⟩
  | .hbm, ⟨107, _⟩ => ⟨S4x16x100000, .f32⟩
  | .hbm, ⟨108, _⟩ => ⟨S4x16x100000x1, .f32⟩
  | .hbm, ⟨109, _⟩ => ⟨S4x16x100000x1, .f32⟩
  | .hbm, ⟨110, _⟩ => ⟨S4x16x100000x2, .f32⟩
  | .hbm, ⟨111, _⟩ => ⟨S4x16x100000x2, .f32⟩
  | .hbm, ⟨112, _⟩ => ⟨S4x16x100000x2, .f32⟩
  | .hbm, ⟨113, _⟩ => ⟨S_, .f32⟩
  | .hbm, ⟨114, _⟩ => ⟨S4x16x100000, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S4x16x10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_call3_v0 : Ref sig .tc := ⟨.hbm, 73, rfl⟩
abbrev main_call3_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_cst_14 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S1x1x100000x1_2 : S100000.BroadcastsInDim S1x1x100000x1 (![2] : Fin 1 → Fin S1x1x100000x1.rank)
  bcast_S100000_S100000x1_0 : S100000.BroadcastsInDim S100000x1 (![0] : Fin 1 → Fin S100000x1.rank)
  bcast_S1x1x100000x1_S4x16x100000x2_0_1_2_3 : S1x1x100000x1.BroadcastsInDim S4x16x100000x2 (![0, 1, 2, 3] : Fin 4 → Fin S4x16x100000x2.rank)
  bcast_S_S4x16x100000x2 : S_.BroadcastsInDim S4x16x100000x2 (![] : Fin 0 → Fin S4x16x100000x2.rank)
  slices_S4x16x100000x2_S4x16x100000x1_0_0_0_0 : S4x16x100000x2.Slices ![0, 0, 0, 0] S4x16x100000x1
  shapeCasts_S4x16x100000x1_S4x16x100000 : S4x16x100000x1.ShapeCasts S4x16x100000
  slices_S4x16x100000x2_S4x16x100000x1_0_0_0_1 : S4x16x100000x2.Slices ![0, 0, 0, 1] S4x16x100000x1
  bcast_S4x16x100000_S4x16x100000x1_0_1_2 : S4x16x100000.BroadcastsInDim S4x16x100000x1 (![0, 1, 2] : Fin 3 → Fin S4x16x100000x1.rank)
  concatenates_S4x16x100000x1_S4x16x100000x1_S4x16x100000x2_d3 : Shape.Concatenates [S4x16x100000x1, S4x16x100000x1] S4x16x100000x2 3
  reducesTo_S4x16x100000x2_S4x16x100000_d3 : S4x16x100000x2.ReducesTo [3] S4x16x100000
  h_S_ : 0 < S_.numel
  reducesTo_S4x16x100000_S_d0_1_2 : S4x16x100000.ReducesTo [0, 1, 2] S_
  gather_S4x16x10000x2_S100000x1_S4x16x100000x2_013_2_n_n_2_1_41612_wf : GatherDims.WF S4x16x10000x2 S100000x1 S4x16x100000x2 [0, 1, 3] [2] [] [2] [] 1 ![4, 16, 1, 2]

variable [Facts₀]

def gather_S4x16x10000x2_S100000x1_S4x16x100000x2_013_2_n_n_2_1_41612 : GatherDims S4x16x10000x2 S100000x1 S4x16x100000x2 where
  offsetDims := [0, 1, 3]
  collapsedSliceDims := [2]
  operandBatchingDims := []
  startIndicesBatchingDims := []
  startIndexMap := [2]
  indexVectorDim := 1
  sliceSizes := ![4, 16, 1, 2]
  wf := gather_S4x16x10000x2_S100000x1_S4x16x100000x2_013_2_n_n_2_1_41612_wf

class Facts : Prop extends Facts₀ where

variable [Facts]
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.Spec.lean ====
/-
  The loss, as mathematics.  Inputs are complex signals stored as (real, imaginary) pairs.  Per batch b, channel c
  and sample l the residual is   g = s − a·conj d − c·conj b   with  a, b  the gathered rows of the difference table,
  c, d  the gathered rows of the target table (each zeroed where its mask bit is set), and the loss is the sum of
  |g|² = (Re g)² + (Im g)² over all (b, c, l), divided by the number of terms.

  Two arrangements of the same numbers appear.  PLANAR: an array indexed [b, c, l, part], part 0 real, part 1
  imaginary.  PACKED: an array of rows l with 128 lanes, lane 16·b + c the real part of channel (b, c) and lane
  64 + 16·b + c its imaginary part.  The sum over a packed array, taken tile by tile (20 tiles of 5000 rows, ten
  tiles accumulated on each of two cores, lanes added at the end), and the sum over the planar array, taken part
  first and then over (b, c, l), are the same finite sum in another order: only commutativity and associativity of
  addition on the extended reals are used.
-/
import Idealize.ShloMosaic.PureOps.Ideal
import Idealize.ShloMosaic.Lib.ValueIdx
import proofs.«425640_j24386824307099_4_alg».proof.Proof.LibBlockedSum

noncomputable section

namespace Cert.CplxMse

open Idealize.ShloMosaic Idealize.ShloMosaic.ValueIdx Cert.LibBlockedSum
open scoped BigOperators

/-- Rows of 128 lanes: lanes below 64 hold real parts, lanes from 64 on imaginary parts. -/
abbrev Packed (n : ℕ) := (⟨2, ![n, 128]⟩ : Shape).Idx → EReal
/-- [batch, channel, position, part] with part 0 real and part 1 imaginary. -/
abbrev Planar (n : ℕ) := (⟨4, ![4, 16, n, 2]⟩ : Shape).Idx → EReal
/-- Two index words per sample. -/
abbrev Words := (⟨2, ![100000, 2]⟩ : Shape).Idx → BitVec 32

/-- The lane holding the real part of channel `j`. -/
def reLane (j : Fin 64) : Fin 128 := ⟨j.val, by have := j.isLt; omega⟩
/-- The lane holding its imaginary part. -/
def imLane (j : Fin 64) : Fin 128 := ⟨64 + j.val, by have := j.isLt; omega⟩
/-- Channel number of batch `b`, channel `c`: `16·b + c`. -/
def chan (b : Fin 4) (c : Fin 16) : Fin 64 := blockIdx 4 16 rfl b c

/-- Real part of  s − a·conj d − c·conj b. -/
def resRe (s0 a0 a1 b0 b1 c0 c1 d0 d1 : EReal) : EReal := s0 - (a0 * d0 + a1 * d1) - (c0 * b0 + c1 * b1)
/-- Imaginary part of  s − a·conj d − c·conj b. -/
def resIm (s1 a0 a1 b0 b1 c0 c1 d0 d1 : EReal) : EReal := s1 - (a1 * d0 - a0 * d1) - (c1 * b0 - c0 * b1)

section rows
variable {n : ℕ} (S A B C D : Packed n)

/-- Squared real part of the residual of channel `j` at row `l`, read off packed arrays. -/
def sqRe (l : Fin n) (j : Fin 64) : EReal :=
  resRe (S (ix2 l (reLane j))) (A (ix2 l (reLane j))) (A (ix2 l (imLane j))) (B (ix2 l (reLane j))) (B (ix2 l (imLane j)))
      (C (ix2 l (reLane j))) (C (ix2 l (imLane j))) (D (ix2 l (reLane j))) (D (ix2 l (imLane j)))
    * resRe (S (ix2 l (reLane j))) (A (ix2 l (reLane j))) (A (ix2 l (imLane j))) (B (ix2 l (reLane j))) (B (ix2 l (imLane j)))
      (C (ix2 l (reLane j))) (C (ix2 l (imLane j))) (D (ix2 l (reLane j))) (D (ix2 l (imLane j)))
/-- Squared imaginary part. -/
def sqIm (l : Fin n) (j : Fin 64) : EReal :=
  resIm (S (ix2 l (imLane j))) (A (ix2 l (reLane j))) (A (ix2 l (imLane j))) (B (ix2 l (reLane j))) (B (ix2 l (imLane j)))
      (C (ix2 l (reLane j))) (C (ix2 l (imLane j))) (D (ix2 l (reLane j))) (D (ix2 l (imLane j)))
    * resIm (S (ix2 l (imLane j))) (A (ix2 l (reLane j))) (A (ix2 l (imLane j))) (B (ix2 l (reLane j))) (B (ix2 l (imLane j)))
      (C (ix2 l (reLane j))) (C (ix2 l (imLane j))) (D (ix2 l (reLane j))) (D (ix2 l (imLane j)))

/-- Column sums over all the rows of the arrays (of a block of rows, when the arrays are a block): real parts, -/
def colRe (j : Fin 64) : EReal := ∑ l : Fin n, sqRe S A B C D l j
/-- imaginary parts. -/
def colIm (j : Fin 64) : EReal := ∑ l : Fin n, sqIm S A B C D l j

end rows

section packed
variable (S A B C D : Packed 100000)

/-- The sum of |g|² over every row and channel. -/
def total : EReal := ∑ l : Fin 100000, ∑ j : Fin 64, (sqRe S A B C D l j + sqIm S A B C D l j)

/-- Row `r` of tile `t` (20 tiles of 5000 rows). -/
def tileRow (t : Fin 20) (r : Fin 5000) : Fin 100000 := blockIdx 20 5000 rfl t r
/-- Tile `k` of core `p` (two cores, ten tiles each). -/
def coreTile (p : Fin 2) (k : Fin 10) : Fin 20 := blockIdx 2 10 rfl p k

/-- Column sums of one tile: real parts, -/
def tileRe (t : Fin 20) (j : Fin 64) : EReal := ∑ r : Fin 5000, sqRe S A B C D (tileRow t r) j
/-- imaginary parts. -/
def tileIm (t : Fin 20) (j : Fin 64) : EReal := ∑ r : Fin 5000, sqIm S A B C D (tileRow t r) j

/-- What core `p` has accumulated in real lane `j` after its tiles 0 … k, -/
def accRe (p : Fin 2) (k : ℕ) (j : Fin 64) : EReal := upto 10 (fun lt => tileRe S A B C D (coreTile p lt) j) k
/-- and in imaginary lane `j`. -/
def accIm (p : Fin 2) (k : ℕ) (j : Fin 64) : EReal := upto 10 (fun lt => tileIm S A B C D (coreTile p lt) j) k

/-- All 128 lanes of core `p` added after its last tile. -/
def coreTotal (p : Fin 2) : EReal := (∑ j : Fin 64, accRe S A B C D p 9 j) + ∑ j : Fin 64, accIm S A B C D p 9 j

end packed

section planar
variable (Ys Ya Yb Yc Yd : Planar 100000)

/-- Squared real part of the residual at (b, c, l), read off planar arrays. -/
def sqReP (b : Fin 4) (c : Fin 16) (l : Fin 100000) : EReal :=
  resRe (Ys (ix4 b c l 0)) (Ya (ix4 b c l 0)) (Ya (ix4 b c l 1)) (Yb (ix4 b c l 0)) (Yb (ix4 b c l 1))
      (Yc (ix4 b c l 0)) (Yc (ix4 b c l 1)) (Yd (ix4 b c l 0)) (Yd (ix4 b c l 1))
    * resRe (Ys (ix4 b c l 0)) (Ya (ix4 b c l 0)) (Ya (ix4 b c l 1)) (Yb (ix4 b c l 0)) (Yb (ix4 b c l 1))
      (Yc (ix4 b c l 0)) (Yc (ix4 b c l 1)) (Yd (ix4 b c l 0)) (Yd (ix4 b c l 1))
/-- Squared imaginary part. -/
def sqImP (b : Fin 4) (c : Fin 16) (l : Fin 100000) : EReal :=
  resIm (Ys (ix4 b c l 1)) (Ya (ix4 b c l 0)) (Ya (ix4 b c l 1)) (Yb (ix4 b c l 0)) (Yb (ix4 b c l 1))
      (Yc (ix4 b c l 0)) (Yc (ix4 b c l 1)) (Yd (ix4 b c l 0)) (Yd (ix4 b c l 1))
    * resIm (Ys (ix4 b c l 1)) (Ya (ix4 b c l 0)) (Ya (ix4 b c l 1)) (Yb (ix4 b c l 0)) (Yb (ix4 b c l 1))
      (Yc (ix4 b c l 0)) (Yc (ix4 b c l 1)) (Yd (ix4 b c l 0)) (Yd (ix4 b c l 1))

/-- The sum of |g|² over (b, c, l), parts first. -/
def totalPlanar : EReal := ∑ b : Fin 4, ∑ c : Fin 16, ∑ l : Fin 100000, (sqReP Ys Ya Yb Yc Yd b c l + sqImP Ys Ya Yb Yc Yd b c l)

end planar

/-- A packed array holds a planar one: lane `16·b + c` of row `l` is the real part at (b, c, l), lane `64 + 16·b + c` the imaginary part. -/
def Packs {n : ℕ} (X : Packed n) (Y : Planar n) : Prop :=
  ∀ (b : Fin 4) (c : Fin 16) (l : Fin n),
    X (ix2 l (reLane (chan b c))) = Y (ix4 b c l 0) ∧ X (ix2 l (imLane (chan b c))) = Y (ix4 b c l 1)

/-! ## The masked gather -/

/-- The table row an index word names (the word read as a natural number; words are below the table's 10000 rows where this is used). -/
def rowOf (w : BitVec 32) : Fin 10000 := ⟨w.toNat % 10000, Nat.mod_lt _ (by norm_num)⟩

/-- Every index word names a row of the table. -/
def InRange (xi : Words) : Prop := ∀ (l : Fin 100000) (k : Fin 2), (xi (ix2 l k)).toNat < 10000

/-- The mask bit of sample `l`, column `k`: set where the weight is positive. -/
def maskBit (ks : (⟨2, ![100000, 2]⟩ : Shape).Idx → EReal) (l : Fin 100000) (k : Fin 2) : BitVec 1 :=
  FloatOps.cmpf (F := Ideal) (φ := .f32) .ogt (ks (ix2 l k)) (Ideal.ofBits .f32 0x00000000#32)

/-- Rows of table `T` gathered by column `k` of the index words, zeroed where the mask bit is set: planar, one gathered row per sample. -/
def gathered (T : Planar 10000) (xi : Words) (ks : (⟨2, ![100000, 2]⟩ : Shape).Idx → EReal) (k : Fin 2) : Planar 100000 :=
  fun i => Scalar.select (maskBit ks (i 2) k) (Ideal.ofBits .f32 0x00000000#32) (T (ix4 (i 0) (i 1) (rowOf (xi (ix2 (i 2) k))) (i 3)))

/-- The difference of two planar arrays, entry by entry. -/
def diff {n : ℕ} (X Y : Planar n) : Planar n := fun i => X i - Y i

/-- The mean: a total divided by the number of terms, 4 · 16 · 100000 = 6400000 (the host's division by that constant),
    as a rank-0 array. -/
def mean (x : EReal) : (⟨0, ![]⟩ : Shape).Idx → EReal :=
  Host.divf (F := Ideal) (s := ⟨0, ![]⟩) (φ := .f32) (fun _ => x) (constant (F := Ideal) ⟨0, ![]⟩ .f32 0x4AC35000#32)

/-- The loss as a function of the six arguments: signals `x1`, `x3`, tables `x0`, `x2`, index words `x4`, weights `x5`. -/
def loss (x0 : Planar 10000) (x1 : Planar 100000) (x2 : Planar 10000) (x3 : Planar 100000) (x4 : Words)
    (x5 : (⟨2, ![100000, 2]⟩ : Shape).Idx → EReal) : (⟨0, ![]⟩ : Shape).Idx → EReal :=
  mean (totalPlanar (diff x1 x3) (gathered (diff x0 x2) x4 x5 0) (gathered (diff x0 x2) x4 x5 1)
    (gathered x2 x4 x5 0) (gathered x2 x4 x5 1))

end Cert.CplxMse

end
-- ==== Proof.SpecSums.lean ====
/-
  The two rearrangements of the total.  Both are a finite sum over the same terms in another order, so they hold in
  any additive commutative monoid; nothing about the extended reals beyond that is used.
-/
import proofs.«425640_j24386824307099_4_alg».proof.Proof.Spec

noncomputable section

namespace Cert.CplxMse

open Idealize.ShloMosaic Idealize.ShloMosaic.ValueIdx Cert.LibBlockedSum
open scoped BigOperators

section order
variable {M : Type*} [AddCommMonoid M] {ι κ τ : Type*} [Fintype ι] [Fintype κ] [Fintype τ]

/-- A triple sum with its outermost index moved innermost: exchange it with the second index, then, under the
    second, with the third. -/
theorem sum_rotate (g : ι → κ → τ → M) : ∑ z, ∑ x, ∑ y, g x y z = ∑ x, ∑ y, ∑ z, g x y z :=
  calc ∑ z, ∑ x, ∑ y, g x y z = ∑ x, ∑ z, ∑ y, g x y z := Finset.sum_comm
    _ = ∑ x, ∑ y, ∑ z, g x y z := Finset.sum_congr rfl fun _ _ => Finset.sum_comm

/-- Two such triple sums added are the rotated triple sum of the termwise sums. -/
theorem sum_rotate_add (a b : ι → κ → τ → M) :
    (∑ z, ∑ x, ∑ y, a x y z) + ∑ z, ∑ x, ∑ y, b x y z = ∑ x, ∑ y, ∑ z, (a x y z + b x y z) := by
  rw [sum_rotate a, sum_rotate b, ← Finset.sum_add_distrib]
  refine Finset.sum_congr rfl fun x _ => ?_
  rw [← Finset.sum_add_distrib]
  exact Finset.sum_congr rfl fun y _ => Finset.sum_add_distrib.symm

end order

/-- The rows split into 20 tiles of 5000, the tiles into 2 cores of 10: the total as a sum over core, tile of the
    core, row of the tile and channel. -/
theorem total_by_tiles (S A B C D : Packed 100000) :
    total S A B C D = ∑ p : Fin 2, ∑ k : Fin 10, ∑ r : Fin 5000, ∑ j : Fin 64,
      (sqRe S A B C D (tileRow (coreTile p k) r) j + sqIm S A B C D (tileRow (coreTile p k) r) j) :=
  calc total S A B C D
      = ∑ t : Fin 20, ∑ r : Fin 5000, ∑ j : Fin 64,
          (sqRe S A B C D (tileRow t r) j + sqIm S A B C D (tileRow t r) j) :=
        sum_blocks (N := 100000) 20 5000 rfl
          (fun l => ∑ j : Fin 64, (sqRe S A B C D l j + sqIm S A B C D l j))
    _ = ∑ p : Fin 2, ∑ k : Fin 10, ∑ r : Fin 5000, ∑ j : Fin 64,
          (sqRe S A B C D (tileRow (coreTile p k) r) j + sqIm S A B C D (tileRow (coreTile p k) r) j) :=
        sum_blocks (N := 20) 2 10 rfl
          (fun t => ∑ r : Fin 5000, ∑ j : Fin 64,
            (sqRe S A B C D (tileRow t r) j + sqIm S A B C D (tileRow t r) j))

/-- After its last tile the real lane j of a core holds the sum over all its ten tiles and their rows, -/
theorem accRe_last (S A B C D : Packed 100000) (p : Fin 2) (j : Fin 64) :
    accRe S A B C D p 9 j = ∑ k : Fin 10, ∑ r : Fin 5000, sqRe S A B C D (tileRow (coreTile p k) r) j := by
  unfold accRe tileRe
  exact upto_last 10 _ 9 (by norm_num)

/-- and its imaginary lane j likewise. -/
theorem accIm_last (S A B C D : Packed 100000) (p : Fin 2) (j : Fin 64) :
    accIm S A B C D p 9 j = ∑ k : Fin 10, ∑ r : Fin 5000, sqIm S A B C D (tileRow (coreTile p k) r) j := by
  unfold accIm tileIm
  exact upto_last 10 _ 9 (by norm_num)

/-- Tile by tile, core by core, lanes last: the same total. -/
theorem sum_coreTotal (S A B C D : Packed 100000) : ∑ p : Fin 2, coreTotal S A B C D p = total S A B C D := by
  rw [total_by_tiles]
  refine Finset.sum_congr rfl fun p _ => ?_
  unfold coreTotal
  rw [Finset.sum_congr rfl (fun j _ => accRe_last S A B C D p j),
    Finset.sum_congr rfl (fun j _ => accIm_last S A B C D p j)]
  exact sum_rotate_add (fun (k : Fin 10) (r : Fin 5000) (j : Fin 64) => sqRe S A B C D (tileRow (coreTile p k) r) j)
    (fun (k : Fin 10) (r : Fin 5000) (j : Fin 64) => sqIm S A B C D (tileRow (coreTile p k) r) j)

/-- Where the packed arrays hold the planar ones, the squared real part read off lane 16·b + c of row l is the
    one read off (b, c, l), -/
theorem sqRe_chan {S A B C D : Packed 100000} {Ys Ya Yb Yc Yd : Planar 100000}
    (hS : Packs S Ys) (hA : Packs A Ya) (hB : Packs B Yb) (hC : Packs C Yc) (hD : Packs D Yd)
    (b : Fin 4) (c : Fin 16) (l : Fin 100000) :
    sqRe S A B C D l (chan b c) = sqReP Ys Ya Yb Yc Yd b c l := by
  unfold sqRe sqReP
  rw [(hS b c l).1, (hA b c l).1, (hA b c l).2, (hB b c l).1, (hB b c l).2, (hC b c l).1, (hC b c l).2,
    (hD b c l).1, (hD b c l).2]

/-- and so is the squared imaginary part. -/
theorem sqIm_chan {S A B C D : Packed 100000} {Ys Ya Yb Yc Yd : Planar 100000}
    (hS : Packs S Ys) (hA : Packs A Ya) (hB : Packs B Yb) (hC : Packs C Yc) (hD : Packs D Yd)
    (b : Fin 4) (c : Fin 16) (l : Fin 100000) :
    sqIm S A B C D l (chan b c) = sqImP Ys Ya Yb Yc Yd b c l := by
  unfold sqIm sqImP
  rw [(hS b c l).2, (hA b c l).1, (hA b c l).2, (hB b c l).1, (hB b c l).2, (hC b c l).1, (hC b c l).2,
    (hD b c l).1, (hD b c l).2]

/-- Packed and planar arrays holding the same numbers have the same total. -/
theorem total_eq_totalPlanar {S A B C D : Packed 100000} {Ys Ya Yb Yc Yd : Planar 100000}
    (hS : Packs S Ys) (hA : Packs A Ya) (hB : Packs B Yb) (hC : Packs C Yc) (hD : Packs D Yd) :
    total S A B C D = totalPlanar Ys Ya Yb Yc Yd := by
  -- row by row, the 64 channels are the 4 batches of 16, and each term is the planar one
  have hrow : ∀ l : Fin 100000, ∑ j : Fin 64, (sqRe S A B C D l j + sqIm S A B C D l j)
      = ∑ b : Fin 4, ∑ c : Fin 16, (sqReP Ys Ya Yb Yc Yd b c l + sqImP Ys Ya Yb Yc Yd b c l) := by
    intro l
    rw [sum_blocks (N := 64) 4 16 rfl (fun j => sqRe S A B C D l j + sqIm S A B C D l j)]
    refine Finset.sum_congr rfl fun b _ => Finset.sum_congr rfl fun c _ => ?_
    show sqRe S A B C D l (chan b c) + sqIm S A B C D l (chan b c) = _
    rw [sqRe_chan hS hA hB hC hD, sqIm_chan hS hA hB hC hD]
  unfold total totalPlanar
  rw [Finset.sum_congr rfl (fun l _ => hrow l)]
  exact sum_rotate (fun (b : Fin 4) (c : Fin 16) (l : Fin 100000) =>
    sqReP Ys Ya Yb Yc Yd b c l + sqImP Ys Ya Yb Yc Yd b c l)

end Cert.CplxMse

end
-- ==== Proof.PreRange.lean ====
/-
  The stated precondition bounds every index word: each lies in [0, 10000), the rows of the gathered tables.
-/
import proofs.«425640_j24386824307099_4_alg».proof.Pre_finite_inputs
import proofs.«425640_j24386824307099_4_alg».proof.Proof.Gen.Pre_finite_inputs
import proofs.«425640_j24386824307099_4_alg».proof.Proof.Spec
import Idealize.ShloMosaic.Lib.ReduceAll
import Idealize.ShloMosaic.Lib.StableHlo.Predicate

set_option maxRecDepth 16384

noncomputable section

namespace Cert.PreRange

open Idealize.ShloMosaic Idealize.ShloMosaic.ValueIdx Cert.CplxMse

/-- A rank-0 array has one index. -/
instance : Subsingleton Cert.Pre_finite_inputs.S_.Idx := ⟨fun a b => funext fun d => d.elim0⟩

/-- A word that is at least 0 and below 10000, both read signed, is below 10000 read unsigned: a non-negative signed
    reading is the unsigned one. -/
theorem toNat_lt_of_signed (w : BitVec 32) (h0 : IntOp.cmpi .sge w 0#32 = 1#1)
    (h1 : IntOp.cmpi .slt w 10000#32 = 1#1) : w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have hw := w.isLt
  have hc := BitVec.toInt_eq_toNat_cond w
  split at hc <;> omega

/-- Where the precondition holds of the arguments, every index word is below 10000 as a natural number (so it is
    non-negative as a signed word, and names a table row). -/
theorem inRange_of_pre [Cert.Pre_finite_inputs.Facts]
    (a0 : FVec Ideal Cert.Pre_finite_inputs.S4x16x10000x2 .f32) (a1 : FVec Ideal Cert.Pre_finite_inputs.S4x16x100000x2 .f32)
    (a2 : FVec Ideal Cert.Pre_finite_inputs.S4x16x10000x2 .f32) (a3 : FVec Ideal Cert.Pre_finite_inputs.S4x16x100000x2 .f32)
    (a4 : IVec Cert.Pre_finite_inputs.S100000x2 32) (a5 : FVec Ideal Cert.Pre_finite_inputs.S100000x2 .f32)
    (h : Cert.Pre_finite_inputs.fn (F := Ideal) a0 a1 a2 a3 a4 a5 = fun _ => 1#1) : InRange a4 := by
  -- the predicate is a conjunction of five all-reductions; the last one is over the two range tests of the words
  have h0 := congrFun h ValueIdx.ix0
  dsimp only [Cert.Pre_finite_inputs.fn, Cert.Pre_finite_inputs.fn_part1] at h0
  have h1 := (IntOp.andi_eq_one.1 h0).2
  intro l k
  have h2 := Host.reduce_andi_all _ _ _ _ _ h1 (ix2 l k)
  obtain ⟨h3, h4⟩ := IntOp.andi_eq_one.1 h2
  exact toNat_lt_of_signed _ h3 h4

end Cert.PreRange

end
-- ==== Proof.KHostLayout.lean ====
/-
  The kernel's host prefix, layout part.  A planar array [b, c, n, part] is transposed to [n, part, b, c] and
  reshaped to rows of 128 lanes, so lane  64·part + 16·b + c  of row n holds entry (b, c, n, part): the two tables
  (the difference table and the target table) and the streamed difference of the two signals.
-/
import proofs.«425640_j24386824307099_4_alg».proof.Proof.Gen.KernelIdeal.Frame.Runs
import proofs.«425640_j24386824307099_4_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostLayout

open Cert.KernelIdeal Cert.KernelIdeal.Gen Idealize.ShloMosaic Idealize.ShloMosaic.TcCoe Idealize.SL.Sem
open Idealize.ShloMosaic.StableHlo Idealize.ShloMosaic.ValueIdx Cert.CplxMse

variable (m : (ℓ : Loc nD τ sig) → Buf (Elt Ideal) ℓ) (c : Dev nD)

/-! ## The layout read at a lane -/

/-- Transposing [4, 16, n, 2] to [n, 2, 4, 16] and reading the result as rows of 128 lanes puts entry (b, ch, l, p)
    in lane 64·p + 16·b + ch of row l: the row-major position of (l, p, b, ch) in [n, 2, 4, 16] is
    ((2·l + p)·4 + b)·16 + ch = 128·l + (64·p + 16·b + ch). -/
theorem packed_read {α : Type} (n : ℕ) (x : (⟨4, ![4, 16, n, 2]⟩ : Shape).Idx → α)
    (hT : (⟨4, ![4, 16, n, 2]⟩ : Shape).Transposes [2, 3, 0, 1] (⟨4, ![n, 2, 4, 16]⟩ : Shape))
    (hC : (⟨4, ![n, 2, 4, 16]⟩ : Shape).ShapeCasts (⟨2, ![n, 128]⟩ : Shape))
    (l : Fin n) (p : Fin 2) (b : Fin 4) (ch : Fin 16) (lane : Fin 128)
    (hlane : lane.val = 64 * p.val + 16 * b.val + ch.val) :
    shapeCast (⟨2, ![n, 128]⟩ : Shape) (transpose (⟨4, ![n, 2, 4, 16]⟩ : Shape) [2, 3, 0, 1] x hT) hC (ix2 l lane)
      = x (ix4 b ch l p) := by
  refine (shapeCast_apply _ hC (ix2 l lane) (ix4 l p b ch) ?_).trans ?_
  · rw [Shape.rowMajor_val_four, Shape.rowMajor_val_two]
    show ((l.val * 2 + p.val) * 4 + b.val) * 16 + ch.val = l.val * 128 + lane.val
    omega
  · refine transpose_apply [2, 3, 0, 1] x hT (ix4 l p b ch) (ix4 b ch l p) (fun a => ?_)
    match a with
    | ⟨0, _⟩ => rfl
    | ⟨1, _⟩ => rfl
    | ⟨2, _⟩ => rfl
    | ⟨3, _⟩ => rfl

/-- The lane of the real part of channel (b, ch) is 16·b + ch, -/
theorem reLane_chan_val (b : Fin 4) (ch : Fin 16) :
    (reLane (chan b ch)).val = 64 * (0 : Fin 2).val + 16 * b.val + ch.val := by
  show b.val * 16 + ch.val = 64 * 0 + 16 * b.val + ch.val
  omega

/-- and of its imaginary part 64 + 16·b + ch. -/
theorem imLane_chan_val (b : Fin 4) (ch : Fin 16) :
    (imLane (chan b ch)).val = 64 * (1 : Fin 2).val + 16 * b.val + ch.val := by
  show 64 + (b.val * 16 + ch.val) = 64 * 1 + 16 * b.val + ch.val
  omega

/-- A planar array, transposed and read as rows of 128 lanes, is packed. -/
theorem packs_of_layout (n : ℕ) (x : (⟨4, ![4, 16, n, 2]⟩ : Shape).Idx → EReal)
    (hT : (⟨4, ![4, 16, n, 2]⟩ : Shape).Transposes [2, 3, 0, 1] (⟨4, ![n, 2, 4, 16]⟩ : Shape))
    (hC : (⟨4, ![n, 2, 4, 16]⟩ : Shape).ShapeCasts (⟨2, ![n, 128]⟩ : Shape)) :
    Packs (shapeCast (⟨2, ![n, 128]⟩ : Shape) (transpose (⟨4, ![n, 2, 4, 16]⟩ : Shape) [2, 3, 0, 1] x hT) hC) x :=
  fun b ch l => ⟨packed_read n x hT hC l 0 b ch _ (reLane_chan_val b ch), packed_read n x hT hC l 1 b ch _ (imLane_chan_val b ch)⟩

/-! ## The host operations before the region, stretch by stretch

The contents when the region is entered are the fold of fourteen stretches of host operations over the launch memory.
The two tables are written in the first stretch and by no later one; the streamed difference is written in the last
stretch, from two arguments that no stretch writes. -/

/-- The contents before the last stretch. -/
def beforeLast (c : Dev nD) : Valuation τ sig (Elt Ideal) :=
  StableHlo.after (List.flatten [hostOps0 (F := Ideal), hostOps0_1, hostOps0_2, hostOps0_3, hostOps0_4, hostOps0_5, hostOps0_6, hostOps0_7, hostOps0_8, hostOps0_9, hostOps0_10, hostOps0_11, hostOps0_12]) (fun b => m (c, b))

/-- The contents after the first stretch. -/
def afterFirst (c : Dev nD) : Valuation τ sig (Elt Ideal) :=
  StableHlo.after (hostOps0 (F := Ideal)) (fun b => m (c, b))

theorem flatten_last :
    List.flatten [hostOps0 (F := Ideal), hostOps0_1, hostOps0_2, hostOps0_3, hostOps0_4, hostOps0_5, hostOps0_6, hostOps0_7, hostOps0_8, hostOps0_9, hostOps0_10, hostOps0_11, hostOps0_12, hostOps0_13]
      = List.flatten [hostOps0 (F := Ideal), hostOps0_1, hostOps0_2, hostOps0_3, hostOps0_4, hostOps0_5, hostOps0_6, hostOps0_7, hostOps0_8, hostOps0_9, hostOps0_10, hostOps0_11, hostOps0_12] ++ hostOps0_13 := by
  simp only [List.flatten_cons, List.flatten_nil, List.append_nil, List.append_assoc]

/-- The contents at the region's entry are the last stretch run from the contents before it, -/
theorem V_eq_last (r : Ref sig .tc) :
    V m c r = StableHlo.after (hostOps0_13 (F := Ideal)) (beforeLast m c) (Proc.devRef .tc r) := by
  unfold beforeLast
  rw [← StableHlo.after_append, ← flatten_last]

/-- and the later stretches run from the contents after the first. -/
theorem V_eq_first (r : Ref sig .tc) :
    V m c r = StableHlo.after (List.flatten [hostOps0_1 (F := Ideal), hostOps0_2, hostOps0_3, hostOps0_4, hostOps0_5, hostOps0_6, hostOps0_7, hostOps0_8, hostOps0_9, hostOps0_10, hostOps0_11, hostOps0_12, hostOps0_13]) (afterFirst m c) (Proc.devRef .tc r) := by
  unfold afterFirst
  rw [← StableHlo.after_append, ← List.flatten_cons]

/-- What the last stretch writes to the streamed buffer, from any contents. -/
theorem last_stretch (W : Valuation τ sig (Elt Ideal)) :
    (StableHlo.after (hostOps0_13 (F := Ideal)) W (Proc.devRef .tc main_v29) : S100000x128.Idx → EReal)
      = shapeCast S100000x128
          (transpose S100000x2x4x16 [2, 3, 0, 1]
            (subf (F := Ideal) (φ := .f32) (W (Proc.devRef .tc main_arg1) : S4x16x100000x2.Idx → EReal) (W (Proc.devRef .tc main_arg3)))
            transposes_S4x16x100000x2_S100000x2x4x16_2_3_0_1)
          shapeCasts_S100000x2x4x16_S100000x128 := by
  dsimp only [hostOps0_13]
  after_results
  rfl

/-- The last stretch leaves the two signal arguments as they were. -/
theorem last_keeps_arg1 (W : Valuation τ sig (Elt Ideal)) :
    StableHlo.after (hostOps0_13 (F := Ideal)) W (Proc.devRef .tc main_arg1) = W (Proc.devRef .tc main_arg1) := by
  dsimp only [hostOps0_13]
  after_results
  all_goals rfl
theorem last_keeps_arg3 (W : Valuation τ sig (Elt Ideal)) :
    StableHlo.after (hostOps0_13 (F := Ideal)) W (Proc.devRef .tc main_arg3) = W (Proc.devRef .tc main_arg3) := by
  dsimp only [hostOps0_13]
  after_results
  all_goals rfl

/-- So before the last stretch they are the launch memory's. -/
theorem beforeLast_arg1 : beforeLast m c (Proc.devRef .tc main_arg1) = m ((c : Thread nD τ).loc main_arg1) :=
  (last_keeps_arg1 (beforeLast m c)).symm.trans ((V_eq_last m c main_arg1).symm.trans (V_main_arg1 m c))
theorem beforeLast_arg3 : beforeLast m c (Proc.devRef .tc main_arg3) = m ((c : Thread nD τ).loc main_arg3) :=
  (last_keeps_arg3 (beforeLast m c)).symm.trans ((V_eq_last m c main_arg3).symm.trans (V_main_arg3 m c))

/-- The streamed buffer at the region's entry, as a term of the two signal arguments. -/
theorem V_v29 :
    (V m c main_v29 : S100000x128.Idx → EReal)
      = shapeCast S100000x128
          (transpose S100000x2x4x16 [2, 3, 0, 1]
            (subf (F := Ideal) (φ := .f32) (m ((c : Thread nD τ).loc main_arg1) : S4x16x100000x2.Idx → EReal) (m ((c : Thread nD τ).loc main_arg3)))
            transposes_S4x16x100000x2_S100000x2x4x16_2_3_0_1)
          shapeCasts_S100000x2x4x16_S100000x128 := by
  rw [V_eq_last, last_stretch, beforeLast_arg1, beforeLast_arg3]

/-- No later stretch writes the difference table's buffer: -/
theorem rest_keeps_v2 (X : Valuation τ sig (Elt Ideal)) :
    StableHlo.after (List.flatten [hostOps0_1 (F := Ideal), hostOps0_2, hostOps0_3, hostOps0_4, hostOps0_5, hostOps0_6, hostOps0_7, hostOps0_8, hostOps0_9, hostOps0_10, hostOps0_11, hostOps0_12, hostOps0_13]) X (Proc.devRef .tc main_v2) = X (Proc.devRef .tc main_v2) :=
  StableHlo.after_of_forall_not_mem (b := Proc.devRef .tc main_v2) _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- nor the target table's. -/
theorem rest_keeps_v4 (X : Valuation τ sig (Elt Ideal)) :
    StableHlo.after (List.flatten [hostOps0_1 (F := Ideal), hostOps0_2, hostOps0_3, hostOps0_4, hostOps0_5, hostOps0_6, hostOps0_7, hostOps0_8, hostOps0_9, hostOps0_10, hostOps0_11, hostOps0_12, hostOps0_13]) X (Proc.devRef .tc main_v4) = X (Proc.devRef .tc main_v4) :=
  StableHlo.after_of_forall_not_mem (b := Proc.devRef .tc main_v4) _ _ (List.forall_iff_forall_mem.mp (by
    simp only [hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- What the first stretch writes to the difference table's buffer, from any contents, -/
theorem first_stretch_v2 (X : Valuation τ sig (Elt Ideal)) :
    (StableHlo.after (hostOps0 (F := Ideal)) X (Proc.devRef .tc main_v2) : S10000x128.Idx → EReal)
      = shapeCast S10000x128
          (transpose S10000x2x4x16 [2, 3, 0, 1]
            (subf (F := Ideal) (φ := .f32) (X (Proc.devRef .tc main_arg0) : S4x16x10000x2.Idx → EReal) (X (Proc.devRef .tc main_arg2)))
            transposes_S4x16x10000x2_S10000x2x4x16_2_3_0_1)
          shapeCasts_S10000x2x4x16_S10000x128 := by
  dsimp only [hostOps0]
  after_results
  rfl

/-- and to the target table's. -/
theorem first_stretch_v4 (X : Valuation τ sig (Elt Ideal)) :
    (StableHlo.after (hostOps0 (F := Ideal)) X (Proc.devRef .tc main_v4) : S10000x128.Idx → EReal)
      = shapeCast S10000x128
          (transpose S10000x2x4x16 [2, 3, 0, 1] (X (Proc.devRef .tc main_arg2) : S4x16x10000x2.Idx → EReal)
            transposes_S4x16x10000x2_S10000x2x4x16_2_3_0_1)
          shapeCasts_S10000x2x4x16_S10000x128 := by
  dsimp only [hostOps0]
  after_results
  rfl

/-- The difference table's buffer at the region's entry, as a term of the two table arguments. -/
theorem V_v2 :
    (V m c main_v2 : S10000x128.Idx → EReal)
      = shapeCast S10000x128
          (transpose S10000x2x4x16 [2, 3, 0, 1]
            (subf (F := Ideal) (φ := .f32) (m ((c : Thread nD τ).loc main_arg0) : S4x16x10000x2.Idx → EReal) (m ((c : Thread nD τ).loc main_arg2)))
            transposes_S4x16x10000x2_S10000x2x4x16_2_3_0_1)
          shapeCasts_S10000x2x4x16_S10000x128 := by
  rw [V_eq_first, rest_keeps_v2]
  unfold afterFirst
  exact first_stretch_v2 _

/-- The target table's buffer at the region's entry, as a term of the target table argument. -/
theorem V_v4 :
    (V m c main_v4 : S10000x128.Idx → EReal)
      = shapeCast S10000x128
          (transpose S10000x2x4x16 [2, 3, 0, 1] (m ((c : Thread nD τ).loc main_arg2) : S4x16x10000x2.Idx → EReal)
            transposes_S4x16x10000x2_S10000x2x4x16_2_3_0_1)
          shapeCasts_S10000x2x4x16_S10000x128 := by
  rw [V_eq_first, rest_keeps_v4]
  unfold afterFirst
  exact first_stretch_v4 _

/-! ## The three buffers are packed -/

/-- The streamed signal difference, packed: it holds the planar difference of the two signal arguments. -/
theorem packs_signal :
    Packs (V m c main_v29 : S100000x128.Idx → EReal)
      (diff (m ((c : Thread nD τ).loc main_arg1) : S4x16x100000x2.Idx → EReal) (m ((c : Thread nD τ).loc main_arg3))) := by
  rw [V_v29]
  exact packs_of_layout 100000 _ _ _

/-- The difference table, packed (10000 rows). -/
theorem packs_table_diff :
    Packs (V m c main_v2 : S10000x128.Idx → EReal)
      (diff (m ((c : Thread nD τ).loc main_arg0) : S4x16x10000x2.Idx → EReal) (m ((c : Thread nD τ).loc main_arg2))) := by
  rw [V_v2]
  exact packs_of_layout 10000 _ _ _

/-- The target table, packed. -/
theorem packs_table_target :
    Packs (V m c main_v4 : S10000x128.Idx → EReal) (m ((c : Thread nD τ).loc main_arg2) : S4x16x10000x2.Idx → EReal) := by
  rw [V_v4]
  exact packs_of_layout 10000 _ _ _

end Cert.KernelIdeal.HostLayout

end
-- ==== Proof.KHostTake.lean ====
/-
  The kernel's host prefix, gather part.  Each of the four gathered operands is: wrap a negative index word by the
  table's length, test the wrapped word against [0, 9999], gather the table's row, replace the row by the fill
  pattern where the test fails, and zero it where the sample's mask bit is set.  With every word in range the wrap
  is the identity and the test succeeds, so the operand's row l is the table's row named by the word, or zero.
-/
import proofs.«425640_j24386824307099_4_alg».proof.Proof.Gen.KernelIdeal.Frame.Runs
import proofs.«425640_j24386824307099_4_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.ReduceAll

set_option maxRecDepth 16384

noncomputable section

namespace Cert.KernelIdeal.HostTake

open Cert.KernelIdeal Cert.KernelIdeal.Gen Idealize.ShloMosaic Idealize.ShloMosaic.TcCoe Idealize.SL.Sem
open Idealize.ShloMosaic.StableHlo Idealize.ShloMosaic.ValueIdx Cert.CplxMse

variable (m : (ℓ : Loc nD τ sig) → Buf (Elt Ideal) ℓ) (c : Dev nD)

/-- The index words and the weights, as the region finds them: the arguments themselves. -/
abbrev words : Words := (m ((c : Thread nD τ).loc main_arg4) : S100000x2.Idx → BitVec 32)
abbrev weights : S100000x2.Idx → EReal := (m ((c : Thread nD τ).loc main_arg5) : S100000x2.Idx → EReal)

/-- Rows of the packed table `T` gathered by column `k` of the words and zeroed under the mask, lane by lane. -/
def takenRow (T : S10000x128.Idx → EReal) (k : Fin 2) (l : Fin 100000) (q : Fin 128) : EReal :=
  Scalar.select (maskBit (weights m c) l k) (Ideal.ofBits .f32 0x00000000#32) (T (ix2 (rowOf (words m c (ix2 l k))) q))

/-! ## Words below the table's length -/

/-- A word below 10000 is not negative. -/
theorem slt_zero_of_lt (w : BitVec 32) (h : w.toNat < 10000) : IntOp.cmpi .slt w 0#32 = 0#1 :=
  eq_zero_of_ne_one fun e => by
    have h0 : (0#32 : BitVec 32).toNat = 0 := rfl
    have := (Predicate.slt_iff_toNat (a := w) (b := 0#32) (by omega) (by omega)).1 e
    omega

/-- It is at least zero, -/
theorem sge_zero_of_lt (w : BitVec 32) (h : w.toNat < 10000) : IntOp.cmpi .sge w 0#32 = 1#1 := by
  have h0 : (0#32 : BitVec 32).toNat = 0 := rfl
  exact (Predicate.sge_iff_toNat (a := w) (b := 0#32) (by omega) (by omega)).2 (by omega)

/-- and at most 9999. -/
theorem sle_last_of_lt (w : BitVec 32) (h : w.toNat < 10000) : IntOp.cmpi .sle w 9999#32 = 1#1 := by
  have h9 : (9999#32 : BitVec 32).toNat = 9999 := rfl
  exact (Predicate.sle_iff_toNat (a := w) (b := 9999#32) (by omega) (by omega)).2 (by omega)

/-- Read signed, it is its value. -/
theorem toInt_toNat_of_lt (w : BitVec 32) (h : w.toNat < 10000) : w.toInt.toNat = w.toNat := by
  rw [Predicate.toInt_eq_toNat_of_lt (a := w) (by omega)]; exact Int.toNat_natCast _

/-! ## A conjunction over an axis of one element -/

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_one f l fun n hn => h n (List.mem_cons_of_mem _ hn)

/-- A reduction by `and` from 1 is 1 at a result index all of whose operand elements are 1. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl, hi]
  refine foldl_andi_one x _ fun n hn => hx n ?_
  exact of_decide_eq_true (List.mem_filter.1 hn).2

/-! ## The gather of whole rows -/

/-- The dimension numbers of a gather of rows: operand [N, M], one start index per result row, the row axis collapsed. -/
abbrev rowDims (N n M : Nat) (wf : GatherDims.WF ⟨2, ![N, M]⟩ ⟨2, ![n, 1]⟩ ⟨2, ![n, M]⟩ [1] [0] [] [0] [] 1 ![1, M]) :
    GatherDims ⟨2, ![N, M]⟩ ⟨2, ![n, 1]⟩ ⟨2, ![n, M]⟩ where
  offsetDims := [1]
  collapsedSliceDims := [0]
  operandBatchingDims := []
  startIndicesBatchingDims := []
  startIndexMap := [0]
  indexVectorDim := 1
  sliceSizes := ![1, M]
  wf := wf

/-- Result element (p, q) is the operand's row named by start index p (read signed, clamped into the table), lane q. -/
theorem gather_rows_apply {α : Type} {N n M w : Nat} (hN : 0 < N)
    (wf : GatherDims.WF ⟨2, ![N, M]⟩ ⟨2, ![n, 1]⟩ ⟨2, ![n, M]⟩ [1] [0] [] [0] [] 1 ![1, M])
    (x : (⟨2, ![N, M]⟩ : Shape).Idx → α) (idx : IVec ⟨2, ![n, 1]⟩ w) (p : Fin n) (q : Fin M) :
    Host.gather (rowDims N n M wf) x idx (ix2 p q)
      = x (ix2 (⟨min (idx (ix2 p (0 : Fin 1))).toInt.toNat (N - 1), by omega⟩ : Fin N) q) := by
  unfold Host.gather
  refine congrArg x (funext fun a => Fin.ext ?_)
  match a with
  | ⟨0, _⟩ =>
    show (rowDims N n M wf).start (ix2 p q) idx 0 + (rowDims N n M wf).batchCoord (ix2 p q) 0
      + (rowDims N n M wf).offCoord (ix2 p q) 0 = min (idx (ix2 p (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n M wf).startIndexMap from List.mem_singleton.mpr rfl)]
    have hsi : (rowDims N n M wf).siIdx (ix2 p q) ⟨List.idxOf (0 : Fin 2) (rowDims N n M wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N n M wf).start (ix2 p q) idx 1 + (rowDims N n M wf).batchCoord (ix2 p q) 1
      + (rowDims N n M wf).offCoord (ix2 p q) 1 = q.val
    have hs : (rowDims N n M wf).start (ix2 p q) idx 1 = 0 := by
      unfold GatherDims.start
      rw [dif_neg (show (1 : Fin 2) ∉ (rowDims N n M wf).startIndexMap from by
        show (1 : Fin 2) ∉ [(0 : Fin 2)]; decide)]
    have hk : (1 : Fin 2) ∈ (rowDims N n M wf).sKept :=
      (GatherDims.mem_sKept _ _).2 ⟨by show (1 : Fin 2) ∉ [(0 : Fin 2)]; decide, List.not_mem_nil⟩
    have ho : (rowDims N n M wf).offCoord (ix2 p q) 1 = q.val := by
      unfold GatherDims.offCoord
      rw [dif_pos hk]
      rfl
    rw [hs, GatherDims.batchCoord_eq_zero _ _ _ List.not_mem_nil, ho]
    omega

/-! ## The take-then-where chain over variables -/

/-- The index words, each negative one moved up by the table's length, as a column. -/
def wrapped (idx : S100000.Idx → BitVec 32) : S100000x1.Idx → BitVec 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 10000#32))) idx)

/-- The test of the wrapped words against [0, 9999], conjoined over the column's one element. -/
def inTable (w : S100000x1.Idx → BitVec 32) : S100000.Idx → BitVec 1 :=
  Host.reduce IntOp.andi
    (andi (cmpi .sge w (broadcastInDim S100000x1 ![] bcast_S_S100000x1 (constantI S_ 32 0#32)))
      (cmpi .sle w (broadcastInDim S100000x1 ![0, 1] bcast_S1x1_S100000x1_0_1
        (broadcastInDim S1x1 ![1] bcast_S1_S1x1_1 (constantI S1 32 9999#32)))))
    (constantI S_ 1 1#1) reducesTo_S100000x1_S100000_d1 h_S_

/-- The rows of `T` the words name, the fill pattern where the test fails. -/
def taken (T : S10000x128.Idx → EReal) (idx : S100000.Idx → BitVec 32) : S100000x128.Idx → EReal :=
  select (broadcastInDim S100000x128 ![0] bcast_S100000_S100000x128_0 (inTable (wrapped idx)))
    (Host.gather gather_S10000x128_S100000x1_S100000x128_1_0_n_n_0_1_1128 T (wrapped idx))
    (broadcastInDim S100000x128 ![] bcast_S_S100000x128 (constant (F := Ideal) S_ .f32 0x7FC00000#32))

/-- Those rows, zeroed where the mask column is set. -/
def takenWhere (T : S10000x128.Idx → EReal) (idx : S100000.Idx → BitVec 32) (mask : S100000x1.Idx → BitVec 1) :
    S100000x128.Idx → EReal :=
  select (broadcastInDim S100000x128 ![0, 1] bcast_S100000x1_S100000x128_0_1 mask)
    (broadcastInDim S100000x128 ![] bcast_S_S100000x128 (constant (F := Ideal) S_ .f32 0x00000000#32))
    (taken T idx)

/-- A word in range is its own wrap. -/
theorem wrapped_apply (idx : S100000.Idx → BitVec 32) (l : Fin 100000) (h : (idx (ix1 l)).toNat < 10000) :
    wrapped idx (ix2 l (0 : Fin 1)) = idx (ix1 l) := by
  unfold wrapped
  rw [broadcastInDim_apply _ _ _ (ix2 l (0 : Fin 1)) (ix1 l) (fun a => by
    obtain rfl : a = 0 := Subsingleton.elim _ _
    rw [if_neg (show ¬ (S100000.size 0 = 1) by decide)]; rfl)]
  show Scalar.select (IntOp.cmpi .slt (idx (ix1 l)) 0#32) (IntOp.addi (idx (ix1 l)) 10000#32) (idx (ix1 l)) = idx (ix1 l)
  rw [slt_zero_of_lt _ h, select_zero]

/-- The test succeeds at a word in range. -/
theorem inTable_apply (w : S100000x1.Idx → BitVec 32) (l : Fin 100000) (h : (w (ix2 l (0 : Fin 1))).toNat < 10000) :
    inTable w (ix1 l) = 1#1 := by
  unfold inTable
  refine reduce_andi_one _ _ _ _ _ rfl fun i hi => ?_
  have h0 : (i 0).val = l.val := by
    have e := Shape.ReducesTo.drop_apply_val_of_eq reducesTo_S100000x1_S100000_d1 i 0 0
    rw [hi] at e; exact e.symm
  have hi' : i = ix2 l (0 : Fin 1) := by
    funext a
    match a with
    | ⟨0, _⟩ => exact Fin.ext h0
    | ⟨1, _⟩ => exact Fin.ext (by have := idx2_lt1 i; show (i 1).val = 0; omega)
  rw [hi']
  show IntOp.andi (IntOp.cmpi .sge (w (ix2 l (0 : Fin 1))) 0#32) (IntOp.cmpi .sle (w (ix2 l (0 : Fin 1))) 9999#32) = 1#1
  rw [sge_zero_of_lt _ h, sle_last_of_lt _ h]; rfl

/-- The program's gather is the gather of rows. -/
theorem gather_eq_rowDims : gather_S10000x128_S100000x1_S100000x128_1_0_n_n_0_1_1128 = rowDims 10000 100000 128 gather_S10000x128_S100000x1_S100000x128_1_0_n_n_0_1_1128_wf := rfl

/-- THE CHAIN AT AN INDEX: with the word of sample `l` in range, lane `q` of the operand's row `l` is lane `q` of the
    table's row the word names, or zero where the mask bit of the sample is set. -/
theorem takenWhere_apply (T : S10000x128.Idx → EReal) (idx : S100000.Idx → BitVec 32) (mask : S100000x1.Idx → BitVec 1)
    (l : Fin 100000) (q : Fin 128) (r : Fin 10000) (hr : r.val = (idx (ix1 l)).toNat) :
    takenWhere T idx mask (ix2 l q)
      = Scalar.select (mask (ix2 l (0 : Fin 1))) (Ideal.ofBits .f32 0x00000000#32) (T (ix2 r q)) := by
  have h : (idx (ix1 l)).toNat < 10000 := hr ▸ r.isLt
  have hw : wrapped idx (ix2 l (0 : Fin 1)) = idx (ix1 l) := wrapped_apply idx l h
  unfold takenWhere taken
  rw [select_apply, select_apply]
  rw [broadcastInDim_apply _ _ mask (ix2 l q) (ix2 l (0 : Fin 1)) (fun a => by
    match a with
    | ⟨0, _⟩ => exact (if_neg (show ¬ ((100000 : ℕ) = 1) by decide)).symm
    | ⟨1, _⟩ => exact (if_pos (show (1 : ℕ) = 1 from rfl)).symm)]
  rw [broadcastInDim_apply _ _ (inTable (wrapped idx)) (ix2 l q) (ix1 l) (fun a => by
    obtain rfl : a = 0 := Subsingleton.elim _ _
    rw [if_neg (show ¬ (S100000.size 0 = 1) by decide)]; rfl)]
  rw [inTable_apply _ l (by rw [hw]; exact h), select_one, gather_eq_rowDims,
    gather_rows_apply (by decide) _ T (wrapped idx) l q,
    show broadcastInDim S100000x128 ![] bcast_S_S100000x128 (constant (F := Ideal) S_ .f32 0x00000000#32) (ix2 l q)
      = Ideal.ofBits .f32 0x00000000#32 from rfl]
  refine congrArg (Scalar.select _ _) (congrArg T (congrArg (fun x => ix2 x q) (Fin.ext ?_)))
  show min (wrapped idx (ix2 l (0 : Fin 1))).toInt.toNat (10000 - 1) = r.val
  rw [hw, toInt_toNat_of_lt _ h, hr]; omega

/-! ## The four operands as that chain -/

set_option maxRecDepth 200000 in
theorem v20_eq : (V m c main_v20 : S100000x128.Idx → EReal)
    = takenWhere (V m c main_v2) (V m c main_v6) (V m c main_v13) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  simp only [takenWhere, taken, inTable, wrapped]
  rfl
set_option maxRecDepth 200000 in
theorem v22_eq : (V m c main_v22 : S100000x128.Idx → EReal)
    = takenWhere (V m c main_v2) (V m c main_v8) (V m c main_v18) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  simp only [takenWhere, taken, inTable, wrapped]
  rfl
set_option maxRecDepth 200000 in
theorem v24_eq : (V m c main_v24 : S100000x128.Idx → EReal)
    = takenWhere (V m c main_v4) (V m c main_v6) (V m c main_v13) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  simp only [takenWhere, taken, inTable, wrapped]
  rfl
set_option maxRecDepth 200000 in
theorem v26_eq : (V m c main_v26 : S100000x128.Idx → EReal)
    = takenWhere (V m c main_v4) (V m c main_v8) (V m c main_v18) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  simp only [takenWhere, taken, inTable, wrapped]
  rfl

/-! ## The index and mask columns the chain is fed -/

/-- Column `k` of a two-column array, cut out and flattened, read at sample `l`. -/
theorem col_read {α : Type} (off : Fin 2 → Nat) (hs : S100000x2.Slices off S100000x1) (hc : S100000x1.ShapeCasts S100000)
    (x : S100000x2.Idx → α) (l : Fin 100000) (k : Fin 2) (h0 : off 0 = 0) (h1 : off 1 = k.val) :
    shapeCast S100000 (extractStridedSlice S100000x1 off x hs) hc (ix1 l) = x (ix2 l k) := by
  rw [shapeCast_apply _ hc (ix1 l) (ix2 l (0 : Fin 1)) (by
    rw [Shape.rowMajor_val_two, Shape.rowMajor_val_one]; show l.val * 1 + 0 = l.val; omega)]
  refine extractStridedSlice_apply off x hs (ix2 l (0 : Fin 1)) (ix2 l k) fun a => ?_
  match a with
  | ⟨0, _⟩ => show l.val = off 0 + l.val; omega
  | ⟨1, _⟩ => show k.val = off 1 + 0; omega

/-- The first index column is column 0 of the words, flattened. -/
theorem v6_eq : (V m c main_v6 : S100000.Idx → BitVec 32) = shapeCast S100000
    (extractStridedSlice S100000x1 ![0, 0] (words m c) slices_S100000x2_S100000x1_0_0) shapeCasts_S100000x1_S100000 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  rfl
/-- The second is column 1. -/
theorem v8_eq : (V m c main_v8 : S100000.Idx → BitVec 32) = shapeCast S100000
    (extractStridedSlice S100000x1 ![0, 1] (words m c) slices_S100000x2_S100000x1_0_1) shapeCasts_S100000x1_S100000 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  rfl
/-- The first mask column: weight column 0 compared with zero, laid as a column. -/
theorem v13_eq : (V m c main_v13 : S100000x1.Idx → BitVec 1) = broadcastInDim S100000x1 ![0] bcast_S100000_S100000x1_0
    (cmpf .ogt (shapeCast S100000
        (extractStridedSlice S100000x1 ![0, 0] (weights m c) slices_S100000x2_S100000x1_0_0) shapeCasts_S100000x1_S100000)
      (broadcastInDim S100000 ![] bcast_S_S100000 (constant (F := Ideal) S_ .f32 0x00000000#32))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  rfl
/-- The second: weight column 1. -/
theorem v18_eq : (V m c main_v18 : S100000x1.Idx → BitVec 1) = broadcastInDim S100000x1 ![0] bcast_S100000_S100000x1_0
    (cmpf .ogt (shapeCast S100000
        (extractStridedSlice S100000x1 ![0, 1] (weights m c) slices_S100000x2_S100000x1_0_1) shapeCasts_S100000x1_S100000)
      (broadcastInDim S100000 ![] bcast_S_S100000 (constant (F := Ideal) S_ .f32 0x00000000#32))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    List.flatten_cons, List.flatten_nil, List.append_nil, List.cons_append, List.nil_append]
  after_results_simp
  rfl

theorem v6_apply (l : Fin 100000) : (V m c main_v6 : S100000.Idx → BitVec 32) (ix1 l) = words m c (ix2 l 0) :=
  (congrFun (v6_eq m c) (ix1 l)).trans (col_read ![0, 0] _ _ (words m c) l 0 rfl rfl)

theorem v8_apply (l : Fin 100000) : (V m c main_v8 : S100000.Idx → BitVec 32) (ix1 l) = words m c (ix2 l 1) :=
  (congrFun (v8_eq m c) (ix1 l)).trans (col_read ![0, 1] _ _ (words m c) l 1 rfl rfl)

/-- A vector laid as a column reads, at row `l`, the vector at `l`. -/
theorem column_apply {α : Type} (v : S100000.Idx → α) (l : Fin 100000) :
    broadcastInDim S100000x1 ![0] bcast_S100000_S100000x1_0 v (ix2 l (0 : Fin 1)) = v (ix1 l) :=
  broadcastInDim_apply _ _ v (ix2 l (0 : Fin 1)) (ix1 l) fun a => by
    obtain rfl : a = 0 := Subsingleton.elim _ _
    rw [if_neg (show ¬ (S100000.size 0 = 1) by decide)]; rfl

theorem v13_apply (l : Fin 100000) :
    (V m c main_v13 : S100000x1.Idx → BitVec 1) (ix2 l (0 : Fin 1)) = maskBit (weights m c) l 0 := by
  rw [congrFun (v13_eq m c) (ix2 l (0 : Fin 1)), column_apply]
  exact congrArg (fun x => FloatOps.cmpf (F := Ideal) (φ := .f32) .ogt x (Ideal.ofBits .f32 0x00000000#32))
    (col_read ![0, 0] _ _ (weights m c) l 0 rfl rfl)

theorem v18_apply (l : Fin 100000) :
    (V m c main_v18 : S100000x1.Idx → BitVec 1) (ix2 l (0 : Fin 1)) = maskBit (weights m c) l 1 := by
  rw [congrFun (v18_eq m c) (ix2 l (0 : Fin 1)), column_apply]
  exact congrArg (fun x => FloatOps.cmpf (F := Ideal) (φ := .f32) .ogt x (Ideal.ofBits .f32 0x00000000#32))
    (col_read ![0, 1] _ _ (weights m c) l 1 rfl rfl)

/-- The row a word in range names is the word's value. -/
theorem rowOf_val (w : BitVec 32) (h : w.toNat < 10000) : (rowOf w).val = w.toNat := Nat.mod_eq_of_lt h

/-- Operand 1 of the kernel (first factor's difference rows): difference table, word column 0. -/
theorem taken_diff0 (hin : InRange (words m c)) (l : Fin 100000) (q : Fin 128) :
    (V m c main_v20 : S100000x128.Idx → EReal) (ix2 l q) = takenRow m c (V m c main_v2) 0 l q := by
  rw [congrFun (v20_eq m c) (ix2 l q), takenWhere_apply _ _ _ l q (rowOf (words m c (ix2 l 0)))
    ((rowOf_val _ (hin l 0)).trans (congrArg BitVec.toNat (v6_apply m c l)).symm), v13_apply]
  rfl
/-- Operand 2: difference table, word column 1. -/
theorem taken_diff1 (hin : InRange (words m c)) (l : Fin 100000) (q : Fin 128) :
    (V m c main_v22 : S100000x128.Idx → EReal) (ix2 l q) = takenRow m c (V m c main_v2) 1 l q := by
  rw [congrFun (v22_eq m c) (ix2 l q), takenWhere_apply _ _ _ l q (rowOf (words m c (ix2 l 1)))
    ((rowOf_val _ (hin l 1)).trans (congrArg BitVec.toNat (v8_apply m c l)).symm), v18_apply]
  rfl
/-- Operand 3: target table, word column 0. -/
theorem taken_target0 (hin : InRange (words m c)) (l : Fin 100000) (q : Fin 128) :
    (V m c main_v24 : S100000x128.Idx → EReal) (ix2 l q) = takenRow m c (V m c main_v4) 0 l q := by
  rw [congrFun (v24_eq m c) (ix2 l q), takenWhere_apply _ _ _ l q (rowOf (words m c (ix2 l 0)))
    ((rowOf_val _ (hin l 0)).trans (congrArg BitVec.toNat (v6_apply m c l)).symm), v13_apply]
  rfl
/-- Operand 4: target table, word column 1. -/
theorem taken_target1 (hin : InRange (words m c)) (l : Fin 100000) (q : Fin 128) :
    (V m c main_v26 : S100000x128.Idx → EReal) (ix2 l q) = takenRow m c (V m c main_v4) 1 l q := by
  rw [congrFun (v26_eq m c) (ix2 l q), takenWhere_apply _ _ _ l q (rowOf (words m c (ix2 l 1)))
    ((rowOf_val _ (hin l 1)).trans (congrArg BitVec.toNat (v8_apply m c l)).symm), v18_apply]
  rfl

end Cert.KernelIdeal.HostTake

end
-- ==== Proof.KHost.lean ====
/-
  The five arrays the kernel streams, in the specification's terms: each packs a planar array of the arguments —
  the signal difference, and the four gathered operands (rows of the difference table or of the target table named
  by a column of the index words, zeroed under that column's mask).
-/
import proofs.«425640_j24386824307099_4_alg».proof.Proof.KHostLayout
import proofs.«425640_j24386824307099_4_alg».proof.Proof.KHostTake

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.ValueIdx Cert.CplxMse Cert.KernelIdeal.HostLayout Cert.KernelIdeal.HostTake

variable (m : (ℓ : Loc nD τ sig) → Buf (Elt Ideal) ℓ) (c : Dev nD)

/-- The arguments as planar arrays. -/
abbrev argTabI : Planar 10000 := (m ((c : Thread nD τ).loc main_arg0) : S4x16x10000x2.Idx → EReal)
abbrev argSigI : Planar 100000 := (m ((c : Thread nD τ).loc main_arg1) : S4x16x100000x2.Idx → EReal)
abbrev argTabT : Planar 10000 := (m ((c : Thread nD τ).loc main_arg2) : S4x16x10000x2.Idx → EReal)
abbrev argSigT : Planar 100000 := (m ((c : Thread nD τ).loc main_arg3) : S4x16x100000x2.Idx → EReal)

/-- Rows taken from a packed table that packs the planar table `Y` pack the rows gathered from `Y`. -/
theorem packs_taken (T : S10000x128.Idx → EReal) (Y : Planar 10000) (hT : Packs T Y) (X : S100000x128.Idx → EReal) (k : Fin 2)
    (hX : ∀ (l : Fin 100000) (q : Fin 128), X (ix2 l q) = takenRow m c T k l q) :
    Packs X (gathered Y (words m c) (weights m c) k) := by
  intro b ch l
  constructor
  · rw [hX l (reLane (chan b ch))]
    unfold takenRow
    rw [(hT b ch (rowOf (words m c (ix2 l k)))).1]
    rfl
  · rw [hX l (imLane (chan b ch))]
    unfold takenRow
    rw [(hT b ch (rowOf (words m c (ix2 l k)))).2]
    rfl

theorem packs_s : Packs (V m c main_v29 : S100000x128.Idx → EReal) (diff (argSigI m c) (argSigT m c)) := packs_signal m c
theorem packs_a (hin : InRange (words m c)) :
    Packs (V m c main_v20 : S100000x128.Idx → EReal) (gathered (diff (argTabI m c) (argTabT m c)) (words m c) (weights m c) 0) :=
  packs_taken m c _ _ (packs_table_diff m c) _ 0 (taken_diff0 m c hin)
theorem packs_b (hin : InRange (words m c)) :
    Packs (V m c main_v22 : S100000x128.Idx → EReal) (gathered (diff (argTabI m c) (argTabT m c)) (words m c) (weights m c) 1) :=
  packs_taken m c _ _ (packs_table_diff m c) _ 1 (taken_diff1 m c hin)
theorem packs_c (hin : InRange (words m c)) :
    Packs (V m c main_v24 : S100000x128.Idx → EReal) (gathered (argTabT m c) (words m c) (weights m c) 0) :=
  packs_taken m c _ _ (packs_table_target m c) _ 0 (taken_target0 m c hin)
theorem packs_d (hin : InRange (words m c)) :
    Packs (V m c main_v26 : S100000x128.Idx → EReal) (gathered (argTabT m c) (words m c) (weights m c) 1) :=
  packs_taken m c _ _ (packs_table_target m c) _ 1 (taken_target1 m c hin)

end Cert.KernelIdeal.HostPrefix

end
-- ==== Proof.KStep.lean ====
/-
  One step of the kernel body, in each of its three cases, over arbitrary input blocks.  A block is 5000 rows of
  128 lanes.  The step forms, per channel, the column sums over the block's rows of the squared real and squared
  imaginary residuals.  At a core's FIRST tile the 128-lane accumulator is zeroed and then receives those sums; at a
  MIDDLE tile they are added to what the accumulator held; at the LAST tile they are added likewise, and then all 128
  lanes of the accumulator are added up and the one number is written to every lane of the output block.
-/
import proofs.«425640_j24386824307099_4_alg».proof.Proof.Gen.KernelIdeal.Frame
import proofs.«425640_j24386824307099_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Step

open Cert.KernelIdeal Cert.KernelIdeal.Gen Idealize.ShloMosaic Idealize.ShloMosaic.TcCoe Idealize.SL.Sem
open Idealize.ShloMosaic.ValueIdx Cert.CplxMse

variable (c : Dev nD) (i : grid0.Coords)
  (arg2 : Memref sig .tc .vmem S5000x128 .f32) (harg2 : arg2.IsWhole) (arg3 : Memref sig .tc .vmem S5000x128 .f32) (harg3 : arg3.IsWhole)
  (arg4 : Memref sig .tc .vmem S5000x128 .f32) (harg4 : arg4.IsWhole) (arg5 : Memref sig .tc .vmem S5000x128 .f32) (harg5 : arg5.IsWhole)
  (arg6 : Memref sig .tc .vmem S5000x128 .f32) (harg6 : arg6.IsWhole) (arg7 : Memref sig .tc .vmem S1x1x128 .f32) (harg7 : arg7.IsWhole)
  (arg8 : Memref sig .tc .vmem S1x128 .f32) (harg8 : arg8.IsWhole)
  (x0 x1 x2 x3 x4 : Vec Ideal S5000x128 .f32) (xs0 : Vec Ideal S1x128 .f32)

/-- A block of rows read as a packed array of 5000 rows. -/
abbrev blk (x : Vec Ideal S5000x128 .f32) : Packed 5000 := x
/-- The accumulator's one row. -/
abbrev lane (xs : Vec Ideal S1x128 .f32) (q : Fin 128) : EReal := xs (ix2 (0 : Fin 1) q)

/-! ## The two halves of the accumulator's row

The body stores the accumulator in two pieces of 64 lanes: lanes 0 … 63 (the real lanes) and lanes 64 … 127 (the
imaginary ones).  Lane `j` of the low piece is real lane `j` of the row, lane `j` of the high piece imaginary lane
`j`; a real lane is not in the high piece and an imaginary lane is not in the low one. -/

/-- Lanes 0 … 63 of the row. -/
abbrev rLo : Rect S1x128 := Rect.unit (s := S1x128) ![0, 0] S1x64.size inb_S1x128_S1x64_0_0
/-- Lanes 64 … 127 of the row. -/
abbrev rHi : Rect S1x128 := Rect.unit (s := S1x128) ![0, 64] S1x64.size inb_S1x128_S1x64_0_64
/-- The whole row. -/
abbrev rAll : Rect S1x128 := Rect.unit (s := S1x128) ![0, 0] S1x128.size inb_S1x128_S1x128_0_0

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

theorem rLo_emb (j : Fin 64) : rLo.emb (ix2 (0 : Fin 1) j) = ix2 (0 : Fin 1) (reLane j) := by
  funext a; apply Fin.ext
  match a with
  | ⟨0, _⟩ => rfl
  | ⟨1, _⟩ => show 0 + 1 * j.val = j.val; omega

theorem rHi_emb (j : Fin 64) : rHi.emb (ix2 (0 : Fin 1) j) = ix2 (0 : Fin 1) (imLane j) := by
  funext a; apply Fin.ext
  match a with
  | ⟨0, _⟩ => rfl
  | ⟨1, _⟩ => show 64 + 1 * j.val = 64 + j.val; omega

theorem re_not_mem_rHi (j : Fin 64) : ix2 (0 : Fin 1) (reLane j) ∉ rHi.set := by
  intro h
  obtain ⟨k, hk, e⟩ := (rHi.toLoadRect.mem_set.mp h) 1
  have e' : j.val = 64 + 1 * k := e
  have := j.isLt
  omega

theorem im_not_mem_rLo (j : Fin 64) : ix2 (0 : Fin 1) (imLane j) ∉ rLo.set := by
  intro h
  obtain ⟨k, hk, e⟩ := (rLo.toLoadRect.mem_set.mp h) 1
  have e' : 64 + j.val = 0 + 1 * k := e
  have hk' : k < 64 := hk
  omega

section canon
variable {Val : EltTy → Type} [∀ e, Nonempty (Val e)]

/-- After a store of the high piece over a store of the low piece, a real lane holds the low piece's payload, -/
theorem canon_re (wHi : rHi.shape.Idx → Val .f32) (wLo : rLo.shape.Idx → Val .f32) (L : List (View.Piece Val S1x128 .f32)) (j : Fin 64) :
    View.canon (⟨rHi, wHi⟩ :: ⟨rLo, wLo⟩ :: L) (ix2 (0 : Fin 1) (reLane j)) = wLo (ix2 (0 : Fin 1) j) := by
  refine (View.canon_cons_of_not_mem (⟨rHi, wHi⟩ : View.Piece Val S1x128 .f32) (⟨rLo, wLo⟩ :: L) (re_not_mem_rHi j)).trans ?_
  rw [← rLo_emb j]
  exact View.canon_cons_emb rLo wLo L _

/-- and an imaginary lane the high piece's. -/
theorem canon_im (wHi : rHi.shape.Idx → Val .f32) (L : List (View.Piece Val S1x128 .f32)) (j : Fin 64) :
    View.canon (⟨rHi, wHi⟩ :: L) (ix2 (0 : Fin 1) (imLane j)) = wHi (ix2 (0 : Fin 1) j) := by
  rw [← rHi_emb j]
  exact View.canon_cons_emb rHi wHi L _

end canon

/-! ## Loads -/

/-- A load of a whole input block reads the block. -/
theorem load_blk (M : Memref sig .tc .vmem S5000x128 .f32) (hM : M.IsWhole) (x : Vec Ideal S5000x128 .f32) :
    View.readAt (Elt Ideal) M.view (Rect.unit (s := S5000x128) ![0, 0] S5000x128.size inb_S5000x128_S5000x128_0_0).toLoadRect (hM.unread x) = x := by
  rw [View.readAt_eq_ld, hM.read_unread, View.ld_unit_zero (S := S5000x128) zeros2]

/-- A load of the accumulator's low half reads its real lanes, -/
theorem load_lo (M : Memref sig .tc .vmem S1x128 .f32) (hM : M.IsWhole) (xs : Vec Ideal S1x128 .f32) (j : Fin 64) :
    View.readAt (Elt Ideal) M.view rLo.toLoadRect (hM.unread xs) (ix2 (0 : Fin 1) j) = lane xs (reLane j) := by
  rw [View.readAt_eq_ld, hM.read_unread]
  show xs (rLo.emb (ix2 (0 : Fin 1) j)) = _
  rw [rLo_emb]

/-- a load of its high half the imaginary ones, -/
theorem load_hi (M : Memref sig .tc .vmem S1x128 .f32) (hM : M.IsWhole) (xs : Vec Ideal S1x128 .f32) (j : Fin 64) :
    View.readAt (Elt Ideal) M.view rHi.toLoadRect (hM.unread xs) (ix2 (0 : Fin 1) j) = lane xs (imLane j) := by
  rw [View.readAt_eq_ld, hM.read_unread]
  show xs (rHi.emb (ix2 (0 : Fin 1) j)) = _
  rw [rHi_emb]

/-- The row of zeros the first tile stores. -/
theorem pay4_apply (y : S1x128.Idx) : k0_pay4 (F := Ideal) y = 0 := by
  unfold k0_pay4
  refine (congrFun (shapeCast_self _ _) y).trans ?_
  exact Ideal.ofBits_zero_f32

/-- After the row of zeros is stored, a load of the low half reads zeros, -/
theorem zero_lo (v : View sig .tc .vmem S1x128 .f32) (j : Fin 64) :
    v.readCov [(⟨rAll, k0_pay4 (F := Ideal)⟩ : View.Piece (Elt Ideal) S1x128 .f32)] rLo.toLoadRect (ix2 (0 : Fin 1) j) = 0 := by
  refine (congrFun (View.readCov_eq_canon' _ _ _) _).trans ?_
  show View.canon _ (rLo.emb (ix2 (0 : Fin 1) j)) = 0
  rw [View.canon_unit_zero zeros2]
  exact pay4_apply _

/-- and, the low half stored over since, a load of the high half still reads zeros. -/
theorem zero_hi (v : View sig .tc .vmem S1x128 .f32) (w : rLo.shape.Idx → Elt Ideal .f32) (j : Fin 64) :
    v.readCov [(⟨rLo, w⟩ : View.Piece (Elt Ideal) S1x128 .f32), ⟨rAll, k0_pay4 (F := Ideal)⟩] rHi.toLoadRect (ix2 (0 : Fin 1) j) = 0 := by
  refine (congrFun (View.readCov_eq_canon' _ _ _) _).trans ?_
  show View.canon _ (rHi.emb (ix2 (0 : Fin 1) j)) = 0
  rw [rHi_emb]
  refine (View.canon_cons_of_not_mem (⟨rLo, w⟩ : View.Piece (Elt Ideal) S1x128 .f32) [⟨rAll, k0_pay4 (F := Ideal)⟩] (im_not_mem_rLo j)).trans ?_
  rw [View.canon_unit_zero zeros2]
  exact pay4_apply _

/-! ## The payloads at an index -/

/-- The left half of a block's row `k`, at `j`, is the block at real lane `j`; -/
theorem slice_lo {α : Type} (X : S5000x128.Idx → α) (k : Fin 5000) (j : Fin 64) :
    extractStridedSlice S5000x64 ![0, 0] X slices_S5000x128_o0_0_S5000x64 (ix2 k j) = X (ix2 k (reLane j)) :=
  slice2_axis1_apply 0 X _ k j (reLane j) (Nat.zero_add _).symm

/-- the right half, the block at imaginary lane `j`. -/
theorem slice_hi {α : Type} (X : S5000x128.Idx → α) (k : Fin 5000) (j : Fin 64) :
    extractStridedSlice S5000x64 ![0, 64] X slices_S5000x128_o0_64_S5000x64 (ix2 k j) = X (ix2 k (imLane j)) :=
  slice2_axis1_apply 64 X _ k j (imLane j) rfl

theorem pay5_eq (x : Vec Ideal S5000x128 .f32) : k0_pay5 (F := Ideal) x = x := by unfold k0_pay5; exact shapeCast_self _ _
theorem pay6_eq (x : Vec Ideal S5000x128 .f32) : k0_pay6 (F := Ideal) x = x := by unfold k0_pay6; exact shapeCast_self _ _
theorem pay7_eq (x : Vec Ideal S5000x128 .f32) : k0_pay7 (F := Ideal) x = x := by unfold k0_pay7; exact shapeCast_self _ _
theorem pay8_eq (x : Vec Ideal S5000x128 .f32) : k0_pay8 (F := Ideal) x = x := by unfold k0_pay8; exact shapeCast_self _ _
theorem pay9_eq (x : Vec Ideal S5000x128 .f32) : k0_pay9 (F := Ideal) x = x := by unfold k0_pay9; exact shapeCast_self _ _

theorem pay10_apply (x : Vec Ideal S5000x128 .f32) (k : Fin 5000) (j : Fin 64) : k0_pay10 (F := Ideal) x (ix2 k j) = x (ix2 k (reLane j)) := by
  unfold k0_pay10; rw [pay6_eq]; exact slice_lo x k j
theorem pay11_apply (x : Vec Ideal S5000x128 .f32) (k : Fin 5000) (j : Fin 64) : k0_pay11 (F := Ideal) x (ix2 k j) = x (ix2 k (imLane j)) := by
  unfold k0_pay11; rw [pay6_eq]; exact slice_hi x k j
theorem pay12_apply (x : Vec Ideal S5000x128 .f32) (k : Fin 5000) (j : Fin 64) : k0_pay12 (F := Ideal) x (ix2 k j) = x (ix2 k (reLane j)) := by
  unfold k0_pay12; rw [pay7_eq]; exact slice_lo x k j
theorem pay13_apply (x : Vec Ideal S5000x128 .f32) (k : Fin 5000) (j : Fin 64) : k0_pay13 (F := Ideal) x (ix2 k j) = x (ix2 k (imLane j)) := by
  unfold k0_pay13; rw [pay7_eq]; exact slice_hi x k j
theorem pay14_apply (x : Vec Ideal S5000x128 .f32) (k : Fin 5000) (j : Fin 64) : k0_pay14 (F := Ideal) x (ix2 k j) = x (ix2 k (reLane j)) := by
  unfold k0_pay14; rw [pay8_eq]; exact slice_lo x k j
theorem pay15_apply (x : Vec Ideal S5000x128 .f32) (k : Fin 5000) (j : Fin 64) : k0_pay15 (F := Ideal) x (ix2 k j) = x (ix2 k (imLane j)) := by
  unfold k0_pay15; rw [pay8_eq]; exact slice_hi x k j
theorem pay16_apply (x : Vec Ideal S5000x128 .f32) (k : Fin 5000) (j : Fin 64) : k0_pay16 (F := Ideal) x (ix2 k j) = x (ix2 k (reLane j)) := by
  unfold k0_pay16; rw [pay9_eq]; exact slice_lo x k j
theorem pay17_apply (x : Vec Ideal S5000x128 .f32) (k : Fin 5000) (j : Fin 64) : k0_pay17 (F := Ideal) x (ix2 k j) = x (ix2 k (imLane j)) := by
  unfold k0_pay17; rw [pay9_eq]; exact slice_hi x k j

/-- Row `k` put back over column `j` of the column sums is the entry `(k, j)`. -/
theorem lift_col (h : S5000x64.Reduces [0] S64) (j : Fin 64) (k : Fin (S5000x64.size 0)) :
    h.lift (ix1 j) k = ix2 (⟨k.val, k.isLt⟩ : Fin 5000) j := by
  funext a; apply Fin.ext
  match a with
  | ⟨0, _⟩ => rfl
  | ⟨1, _⟩ => rfl

/-- The first payload at a channel: the column sum of the squared real residual. -/
theorem pay18_apply (x0 x1 x2 x3 x4 : Vec Ideal S5000x128 .f32) (j : Fin 64) :
    k0_pay18 (F := Ideal) x0 x1 x2 x3 x4 (ix2 (0 : Fin 1) j) = colRe (blk x0) (blk x1) (blk x2) (blk x3) (blk x4) j := by
  unfold k0_pay18
  dsimp only
  refine (shapeCast_a_1a_apply _ _ (0 : Fin 1) j).trans ?_
  refine (Ideal.multiReduction_add_single _ _ _ _ _ (ix1 j)).trans ?_
  unfold colRe
  refine Finset.sum_congr rfl fun k _ => ?_
  rw [lift_col]
  simp only [mulf_apply, subf_apply, addf_apply, pay10_apply, pay11_apply, pay12_apply, pay13_apply, pay14_apply, pay15_apply,
    pay16_apply, pay17_apply, pay5_eq, slice_lo]
  rfl

/-- The second payload at an entry: the squared imaginary residual. -/
theorem pay19_apply (x0 x1 x2 x3 x4 : Vec Ideal S5000x128 .f32) (k : Fin 5000) (j : Fin 64) :
    k0_pay19 (F := Ideal) x0 x1 x2 x3 x4 (ix2 k j) = sqIm (blk x0) (blk x1) (blk x2) (blk x3) (blk x4) k j := by
  unfold k0_pay19
  simp only [mulf_apply, subf_apply, pay10_apply, pay11_apply, pay12_apply, pay13_apply, pay14_apply, pay15_apply,
    pay16_apply, pay17_apply, pay5_eq, slice_hi]
  rfl

/-- The low half's update: what was loaded plus the column sums. -/
theorem pay1_apply (v41 : FVec Ideal S1x64 .f32) (v45 : Vec Ideal S1x64 .f32) (y : S1x64.Idx) :
    k0_pay1 (F := Ideal) v41 v45 y = v45 y + v41 y := by
  unfold k0_pay1
  exact congrFun (shapeCast_self _ _) y

/-- The high half's update: what was loaded plus the column sums of the squares it is given. -/
theorem pay2_apply (v42 : FVec Ideal S5000x64 .f32) (v50 : Vec Ideal S1x64 .f32) (j : Fin 64) :
    k0_pay2 (F := Ideal) v42 v50 (ix2 (0 : Fin 1) j) = v50 (ix2 (0 : Fin 1) j) + ∑ k : Fin 5000, v42 (ix2 k j) := by
  unfold k0_pay2
  dsimp only
  refine (congrFun (shapeCast_self _ _) _).trans ?_
  refine congrArg (v50 (ix2 (0 : Fin 1) j) + ·) ?_
  refine (shapeCast_a_1a_apply _ _ (0 : Fin 1) j).trans ?_
  refine (Ideal.multiReduction_add_single _ _ _ _ _ (ix1 j)).trans ?_
  refine Finset.sum_congr rfl fun k _ => ?_
  rw [lift_col]
  rfl

/-- The last payload: all 128 lanes of the row added, the 64 real ones and then the 64 imaginary ones, at every lane of the result. -/
theorem pay3_apply (acc : Vec Ideal S1x128 .f32) (y : S1x1x128.Idx) :
    k0_pay3 (F := Ideal) acc y = (∑ j : Fin 64, lane acc (reLane j)) + ∑ j : Fin 64, lane acc (imLane j) := by
  unfold k0_pay3
  dsimp only
  show shapeCast S1x1x1 _ shapeCasts_S1_S1x1x1 _ = _
  refine (shapeCast_apply _ _ _ (ix1 (0 : Fin 1)) ?_).trans ?_
  · rw [Shape.rowMajor_val_one, Shape.rowMajor_val_three]; rfl
  refine (Ideal.multiReduction_add_total _ _ _ (fun b => match b with | ⟨0, _⟩ => rfl) _ _ (ix1 (0 : Fin 1))).trans ?_
  refine (Equiv.sum_comp (Shape.reshapeEquiv shapeCasts_S1x128_S1x1x128) acc).trans ?_
  refine (sum_idx2 acc).trans ?_
  rw [Fin.sum_univ_one]
  exact Fin.sum_univ_add (a := 64) (b := 64) (fun q : Fin 128 => acc (ix2 (0 : Fin 1) q))

/-! ## The three cases -/

/-- The output block's one store, read back: the sum of all lanes of what the accumulator's pieces hold. -/
theorem out_of_pieces (v : View sig .tc .vmem S1x128 .f32) (L : List (View.Piece (Elt Ideal) S1x128 .f32)) (y : S1x1x128.Idx) :
    View.canon [(⟨Rect.unit (s := S1x1x128) ![0, 0, 0] S1x1x128.size inb_S1x1x128_S1x1x128_0_0_0,
        k0_pay3 (F := Ideal) (v.readCov L rAll.toLoadRect)⟩ : View.Piece (Elt Ideal) S1x1x128 .f32)] y
      = (∑ j : Fin 64, lane (View.canon L) (reLane j)) + ∑ j : Fin 64, lane (View.canon L) (imLane j) := by
  have e : v.readCov L rAll.toLoadRect = View.canon L := by
    rw [View.readCov_eq_canon']
    exact View.ld_unit_zero (S := S1x128) zeros2 inb_S1x128_S1x128_0_0 (View.canon L)
  rw [View.canon_unit_zero zeros3, e]
  exact pay3_apply _ y

/-- FIRST tile: the accumulator's real lane `j` ends at the block's column sum. -/
theorem first_re (hc0 : cond0_0 i) (hc1 : ¬cond0_1 i) (j : Fin 64) :
    lane (sout0_A_0 (F := Ideal) c i arg2 harg2 arg3 harg3 arg4 harg4 arg5 harg5 arg6 harg6 arg7 harg7 arg8 harg8 hc0 hc1 x0 x1 x2 x3 x4) (reLane j)
      = colRe (blk x0) (blk x1) (blk x2) (blk x3) (blk x4) j := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [load_blk arg2 harg2 x0, load_blk arg3 harg3 x1, load_blk arg4 harg4 x2, load_blk arg5 harg5 x3, load_blk arg6 harg6 x4]
  refine (canon_re _ _ _ j).trans ?_
  refine (pay1_apply _ _ _).trans ?_
  refine (congrArg₂ (· + ·) (zero_lo _ j) (pay18_apply x0 x1 x2 x3 x4 j)).trans ?_
  exact zero_add _
/-- and its imaginary lane likewise. -/
theorem first_im (hc0 : cond0_0 i) (hc1 : ¬cond0_1 i) (j : Fin 64) :
    lane (sout0_A_0 (F := Ideal) c i arg2 harg2 arg3 harg3 arg4 harg4 arg5 harg5 arg6 harg6 arg7 harg7 arg8 harg8 hc0 hc1 x0 x1 x2 x3 x4) (imLane j)
      = colIm (blk x0) (blk x1) (blk x2) (blk x3) (blk x4) j := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [load_blk arg2 harg2 x0, load_blk arg3 harg3 x1, load_blk arg4 harg4 x2, load_blk arg5 harg5 x3, load_blk arg6 harg6 x4]
  refine (canon_im _ _ j).trans ?_
  refine (pay2_apply _ _ j).trans ?_
  refine (congrArg₂ (· + ·) (zero_hi _ _ j) (Finset.sum_congr rfl fun k _ => pay19_apply x0 x1 x2 x3 x4 k j)).trans ?_
  exact zero_add _

/-- MIDDLE tile: what the accumulator held, plus the block's column sum. -/
theorem mid_re (hc0 : ¬cond0_0 i) (hc1 : ¬cond0_1 i) (j : Fin 64) :
    lane (sout0_B_0 (F := Ideal) c i arg2 harg2 arg3 harg3 arg4 harg4 arg5 harg5 arg6 harg6 arg7 harg7 arg8 harg8 hc0 hc1 x0 x1 x2 x3 x4 xs0) (reLane j)
      = lane xs0 (reLane j) + colRe (blk x0) (blk x1) (blk x2) (blk x3) (blk x4) j := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [load_blk arg2 harg2 x0, load_blk arg3 harg3 x1, load_blk arg4 harg4 x2, load_blk arg5 harg5 x3, load_blk arg6 harg6 x4]
  refine (canon_re _ _ _ j).trans ?_
  refine (pay1_apply _ _ _).trans ?_
  exact congrArg₂ (· + ·) (load_lo arg8 harg8 xs0 j) (pay18_apply x0 x1 x2 x3 x4 j)
theorem mid_im (hc0 : ¬cond0_0 i) (hc1 : ¬cond0_1 i) (j : Fin 64) :
    lane (sout0_B_0 (F := Ideal) c i arg2 harg2 arg3 harg3 arg4 harg4 arg5 harg5 arg6 harg6 arg7 harg7 arg8 harg8 hc0 hc1 x0 x1 x2 x3 x4 xs0) (imLane j)
      = lane xs0 (imLane j) + colIm (blk x0) (blk x1) (blk x2) (blk x3) (blk x4) j := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [load_blk arg2 harg2 x0, load_blk arg3 harg3 x1, load_blk arg4 harg4 x2, load_blk arg5 harg5 x3, load_blk arg6 harg6 x4]
  refine (canon_im _ _ j).trans ?_
  refine (pay2_apply _ _ j).trans ?_
  exact congrArg₂ (· + ·) (load_hi arg8 harg8 xs0 j) (Finset.sum_congr rfl fun k _ => pay19_apply x0 x1 x2 x3 x4 k j)

/-- LAST tile: the accumulator is updated in the same way, -/
theorem last_re (hc0 : ¬cond0_0 i) (hc1 : cond0_1 i) (j : Fin 64) :
    lane (sout0_C_0 (F := Ideal) c i arg2 harg2 arg3 harg3 arg4 harg4 arg5 harg5 arg6 harg6 arg7 harg7 arg8 harg8 hc0 hc1 x0 x1 x2 x3 x4 xs0) (reLane j)
      = lane xs0 (reLane j) + colRe (blk x0) (blk x1) (blk x2) (blk x3) (blk x4) j := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [load_blk arg2 harg2 x0, load_blk arg3 harg3 x1, load_blk arg4 harg4 x2, load_blk arg5 harg5 x3, load_blk arg6 harg6 x4]
  refine (canon_re _ _ _ j).trans ?_
  refine (pay1_apply _ _ _).trans ?_
  exact congrArg₂ (· + ·) (load_lo arg8 harg8 xs0 j) (pay18_apply x0 x1 x2 x3 x4 j)
theorem last_im (hc0 : ¬cond0_0 i) (hc1 : cond0_1 i) (j : Fin 64) :
    lane (sout0_C_0 (F := Ideal) c i arg2 harg2 arg3 harg3 arg4 harg4 arg5 harg5 arg6 harg6 arg7 harg7 arg8 harg8 hc0 hc1 x0 x1 x2 x3 x4 xs0) (imLane j)
      = lane xs0 (imLane j) + colIm (blk x0) (blk x1) (blk x2) (blk x3) (blk x4) j := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [load_blk arg2 harg2 x0, load_blk arg3 harg3 x1, load_blk arg4 harg4 x2, load_blk arg5 harg5 x3, load_blk arg6 harg6 x4]
  refine (canon_im _ _ j).trans ?_
  refine (pay2_apply _ _ j).trans ?_
  exact congrArg₂ (· + ·) (load_hi arg8 harg8 xs0 j) (Finset.sum_congr rfl fun k _ => pay19_apply x0 x1 x2 x3 x4 k j)
/-- and every lane of the output block receives the sum of the updated accumulator's 128 lanes: the 64 real lanes, then the 64 imaginary ones. -/
theorem last_out (hc0 : ¬cond0_0 i) (hc1 : cond0_1 i) (y : S1x1x128.Idx) :
    (out0_C_5 (F := Ideal) c i arg2 harg2 arg3 harg3 arg4 harg4 arg5 harg5 arg6 harg6 arg7 harg7 arg8 harg8 hc0 hc1 x0 x1 x2 x3 x4 xs0 : S1x1x128.Idx → EReal) y
      = (∑ j : Fin 64, lane (sout0_C_0 (F := Ideal) c i arg2 harg2 arg3 harg3 arg4 harg4 arg5 harg5 arg6 harg6 arg7 harg7 arg8 harg8 hc0 hc1 x0 x1 x2 x3 x4 xs0) (reLane j))
        + ∑ j : Fin 64, lane (sout0_C_0 (F := Ideal) c i arg2 harg2 arg3 harg3 arg4 harg4 arg5 harg5 arg6 harg6 arg7 harg7 arg8 harg8 hc0 hc1 x0 x1 x2 x3 x4 xs0) (imLane j) := by
  unfold out0_C_5 sout0_C_0
  rw [View.read_writes_eq_canon _ _ _ (cover0_C_5 c i arg2 harg2 arg3 harg3 arg4 harg4 arg5 harg5 arg6 harg6 arg7 harg7 arg8 harg8 hc0 hc1 x0 x1 x2 x3 x4 xs0),
    View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  exact out_of_pieces _ _ y

end Cert.KernelIdeal.Step

end
-- ==== Proof.KBody.lean ====
/-
  The kernel body, tile by tile.  At each of a core's ten tiles the body adds the tile's column sums of the squared
  real and imaginary residuals into a 128-lane accumulator (zeroed at the core's first tile); at the tenth it adds
  up the 128 lanes and writes that one number to every lane of the core's output block.

  A grid point's five input blocks are rows 5000·t … 5000·t + 4999 of the five packed arrays, t the point's number, so
  a block's column sums are the tile's.  Along core p's points 10·p, …, 10·p + 9 the accumulator therefore runs through
  the partial sums of the core's tiles, and after the last one the output block holds the sum of all 128 lanes of the
  full sum: the core's total.
-/
import proofs.«425640_j24386824307099_4_alg».proof.Proof.Gen.KernelIdeal.Frame
import proofs.«425640_j24386824307099_4_alg».proof.Proof.Spec
import proofs.«425640_j24386824307099_4_alg».proof.Proof.KStep
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.CplxMse Cert.LibBlockedSum Cert.KernelIdeal.Step

variable (m : (ℓ : Loc nD τ sig) → Buf (Elt Ideal) ℓ) (c : Dev nD)

/-- The five input arrays as the region finds them, packed: the signal difference and the four gathered operands. -/
abbrev arrS : Packed 100000 := (V m c main_v29 : S100000x128.Idx → EReal)
abbrev arrA : Packed 100000 := (V m c main_v20 : S100000x128.Idx → EReal)
abbrev arrB : Packed 100000 := (V m c main_v22 : S100000x128.Idx → EReal)
abbrev arrC : Packed 100000 := (V m c main_v24 : S100000x128.Idx → EReal)
abbrev arrD : Packed 100000 := (V m c main_v26 : S100000x128.Idx → EReal)

/-- The five input blocks at grid point `t`: 5000 rows of 128 lanes each. -/
abbrev xblk0 (t : Fin cfg0.N) : Vec Ideal S5000x128 .f32 := iblk m c 0 t
abbrev xblk1 (t : Fin cfg0.N) : Vec Ideal S5000x128 .f32 := iblk m c 1 t
abbrev xblk2 (t : Fin cfg0.N) : Vec Ideal S5000x128 .f32 := iblk m c 2 t
abbrev xblk3 (t : Fin cfg0.N) : Vec Ideal S5000x128 .f32 := iblk m c 3 t
abbrev xblk4 (t : Fin cfg0.N) : Vec Ideal S5000x128 .f32 := iblk m c 4 t

/-- The tile a grid point works on: the grid has 2 · 10 = 20 points, numbered core-major, and point `t` reads tile `t`. -/
def tileOf (t : Fin cfg0.N) : Fin 20 := ⟨t.val, lt_of_lt_of_eq t.isLt N_0⟩

/-! ## Where a block sits in its array

Each input's index map sends the grid point (core, step) to block (10 · core + step, 0): block row index the flat point
number, block column index 0.  So row `r`, lane `q` of the block at point `t` is row `5000 · t + r`, lane `q` of the array. -/

theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)
theorem idx_facts2 : ∀ t : Fin cfg0.N, win0_2.index t (0 : Fin 2) = t.val ∧ win0_2.index t (1 : Fin 2) = 0 :=
  (by decide +kernel : ∀ t : Fin grid0.N, _)
theorem idx_facts3 : ∀ t : Fin cfg0.N, win0_3.index t (0 : Fin 2) = t.val ∧ win0_3.index t (1 : Fin 2) = 0 :=
  (by decide +kernel : ∀ t : Fin grid0.N, _)
theorem idx_facts4 : ∀ t : Fin cfg0.N, win0_4.index t (0 : Fin 2) = t.val ∧ win0_4.index t (1 : Fin 2) = 0 :=
  (by decide +kernel : ∀ t : Fin grid0.N, _)

theorem xblk0_read (t : Fin cfg0.N) (r : Fin 5000) (q : Fin 128) :
    blk (xblk0 m c t) (ix2 r q) = arrS m c (ix2 (tileRow (tileOf t) r) q) := by
  show V m c main_v29 (((cfg0.win 0).blk t).view.emb (ix2 r q)) = V m c main_v29 (ix2 (tileRow (tileOf t) r) q)
  have e : ((cfg0.win 0).blk t).view.emb (ix2 r q) = ix2 (tileRow (tileOf t) r) q := by
    funext a; apply Fin.ext
    match a with
    | ⟨0, _⟩ =>
      show win0_0.index t (0 : Fin 2) * 5000 + 1 * r.val = t.val * 5000 + r.val
      rw [(idx_facts0 t).1]; omega
    | ⟨1, _⟩ =>
      show win0_0.index t (1 : Fin 2) * 128 + 1 * q.val = q.val
      rw [(idx_facts0 t).2]; omega
  rw [e]
theorem xblk1_read (t : Fin cfg0.N) (r : Fin 5000) (q : Fin 128) :
    blk (xblk1 m c t) (ix2 r q) = arrA m c (ix2 (tileRow (tileOf t) r) q) := by
  show V m c main_v20 (((cfg0.win 1).blk t).view.emb (ix2 r q)) = V m c main_v20 (ix2 (tileRow (tileOf t) r) q)
  have e : ((cfg0.win 1).blk t).view.emb (ix2 r q) = ix2 (tileRow (tileOf t) r) q := by
    funext a; apply Fin.ext
    match a with
    | ⟨0, _⟩ =>
      show win0_1.index t (0 : Fin 2) * 5000 + 1 * r.val = t.val * 5000 + r.val
      rw [(idx_facts1 t).1]; omega
    | ⟨1, _⟩ =>
      show win0_1.index t (1 : Fin 2) * 128 + 1 * q.val = q.val
      rw [(idx_facts1 t).2]; omega
  rw [e]
theorem xblk2_read (t : Fin cfg0.N) (r : Fin 5000) (q : Fin 128) :
    blk (xblk2 m c t) (ix2 r q) = arrB m c (ix2 (tileRow (tileOf t) r) q) := by
  show V m c main_v22 (((cfg0.win 2).blk t).view.emb (ix2 r q)) = V m c main_v22 (ix2 (tileRow (tileOf t) r) q)
  have e : ((cfg0.win 2).blk t).view.emb (ix2 r q) = ix2 (tileRow (tileOf t) r) q := by
    funext a; apply Fin.ext
    match a with
    | ⟨0, _⟩ =>
      show win0_2.index t (0 : Fin 2) * 5000 + 1 * r.val = t.val * 5000 + r.val
      rw [(idx_facts2 t).1]; omega
    | ⟨1, _⟩ =>
      show win0_2.index t (1 : Fin 2) * 128 + 1 * q.val = q.val
      rw [(idx_facts2 t).2]; omega
  rw [e]
theorem xblk3_read (t : Fin cfg0.N) (r : Fin 5000) (q : Fin 128) :
    blk (xblk3 m c t) (ix2 r q) = arrC m c (ix2 (tileRow (tileOf t) r) q) := by
  show V m c main_v24 (((cfg0.win 3).blk t).view.emb (ix2 r q)) = V m c main_v24 (ix2 (tileRow (tileOf t) r) q)
  have e : ((cfg0.win 3).blk t).view.emb (ix2 r q) = ix2 (tileRow (tileOf t) r) q := by
    funext a; apply Fin.ext
    match a with
    | ⟨0, _⟩ =>
      show win0_3.index t (0 : Fin 2) * 5000 + 1 * r.val = t.val * 5000 + r.val
      rw [(idx_facts3 t).1]; omega
    | ⟨1, _⟩ =>
      show win0_3.index t (1 : Fin 2) * 128 + 1 * q.val = q.val
      rw [(idx_facts3 t).2]; omega
  rw [e]
theorem xblk4_read (t : Fin cfg0.N) (r : Fin 5000) (q : Fin 128) :
    blk (xblk4 m c t) (ix2 r q) = arrD m c (ix2 (tileRow (tileOf t) r) q) := by
  show V m c main_v26 (((cfg0.win 4).blk t).view.emb (ix2 r q)) = V m c main_v26 (ix2 (tileRow (tileOf t) r) q)
  have e : ((cfg0.win 4).blk t).view.emb (ix2 r q) = ix2 (tileRow (tileOf t) r) q := by
    funext a; apply Fin.ext
    match a with
    | ⟨0, _⟩ =>
      show win0_4.index t (0 : Fin 2) * 5000 + 1 * r.val = t.val * 5000 + r.val
      rw [(idx_facts4 t).1]; omega
    | ⟨1, _⟩ =>
      show win0_4.index t (1 : Fin 2) * 128 + 1 * q.val = q.val
      rw [(idx_facts4 t).2]; omega
  rw [e]

/-! ## A block's column sums are its tile's -/

/-- The squared real residual of channel `j` at row `r` of the blocks is that of row `r` of tile `t` of the arrays. -/
theorem sqRe_blk (t : Fin cfg0.N) (r : Fin 5000) (j : Fin 64) :
    sqRe (blk (xblk0 m c t)) (blk (xblk1 m c t)) (blk (xblk2 m c t)) (blk (xblk3 m c t)) (blk (xblk4 m c t)) r j = sqRe (arrS m c) (arrA m c) (arrB m c) (arrC m c) (arrD m c) (tileRow (tileOf t) r) j := by
  unfold sqRe
  rw [xblk0_read m c t r (reLane j), xblk1_read m c t r (reLane j), xblk1_read m c t r (imLane j),
    xblk2_read m c t r (reLane j), xblk2_read m c t r (imLane j), xblk3_read m c t r (reLane j), xblk3_read m c t r (imLane j),
    xblk4_read m c t r (reLane j), xblk4_read m c t r (imLane j)]
/-- The squared imaginary residual likewise. -/
theorem sqIm_blk (t : Fin cfg0.N) (r : Fin 5000) (j : Fin 64) :
    sqIm (blk (xblk0 m c t)) (blk (xblk1 m c t)) (blk (xblk2 m c t)) (blk (xblk3 m c t)) (blk (xblk4 m c t)) r j = sqIm (arrS m c) (arrA m c) (arrB m c) (arrC m c) (arrD m c) (tileRow (tileOf t) r) j := by
  unfold sqIm
  rw [xblk0_read m c t r (imLane j), xblk1_read m c t r (reLane j), xblk1_read m c t r (imLane j),
    xblk2_read m c t r (reLane j), xblk2_read m c t r (imLane j), xblk3_read m c t r (reLane j), xblk3_read m c t r (imLane j),
    xblk4_read m c t r (reLane j), xblk4_read m c t r (imLane j)]

/-- Summed over the block's rows: the column sums of the blocks at point `t` are the column sums of tile `t`. -/
theorem colRe_blk (t : Fin cfg0.N) (j : Fin 64) :
    colRe (blk (xblk0 m c t)) (blk (xblk1 m c t)) (blk (xblk2 m c t)) (blk (xblk3 m c t)) (blk (xblk4 m c t)) j = tileRe (arrS m c) (arrA m c) (arrB m c) (arrC m c) (arrD m c) (tileOf t) j := by
  unfold colRe tileRe
  exact Finset.sum_congr rfl fun r _ => sqRe_blk m c t r j
theorem colIm_blk (t : Fin cfg0.N) (j : Fin 64) :
    colIm (blk (xblk0 m c t)) (blk (xblk1 m c t)) (blk (xblk2 m c t)) (blk (xblk3 m c t)) (blk (xblk4 m c t)) j = tileIm (arrS m c) (arrA m c) (arrB m c) (arrC m c) (arrD m c) (tileOf t) j := by
  unfold colIm tileIm
  exact Finset.sum_congr rfl fun r _ => sqIm_blk m c t r j

/-! ## The accumulator along a core's ten tiles -/

/-- After step `k` of core `p` (grid point `10·p + k`) the accumulator's real lane `j` holds the sum of the real column sums
    of the core's tiles 0 … k, its imaginary lane the sum of the imaginary ones.  By induction on `k`: the first step zeroes
    the accumulator and adds tile 0's sums, every later step adds its tile's sums to what the step before left. -/
theorem acc_inv (p : Fin 2) : ∀ (k : ℕ), k ≤ 9 → ∀ (t : Fin cfg0.N), t.val = 10 * p.val + k → ∀ j : Fin 64,
    lane (outsAt0 m c t.val t.isLt).2 (reLane j) = accRe (arrS m c) (arrA m c) (arrB m c) (arrC m c) (arrD m c) p k j
    ∧ lane (outsAt0 m c t.val t.isLt).2 (imLane j) = accIm (arrS m c) (arrA m c) (arrB m c) (arrC m c) (arrD m c) p k j := by
  intro k
  induction k with
  | zero =>
    intro _ t ht j
    have h0 : t.val % 10 = 0 := by omega
    have h1 : ¬t.val % 10 = 9 := by omega
    have hT : tileOf t = coreTile p ⟨0, by norm_num⟩ := Fin.ext (by show t.val = p.val * 10 + 0; omega)
    rw [outsAt0_A m c t h0 h1]
    dsimp only
    constructor
    · refine (first_re c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) ((hcond0_0 t).mpr h0) (fun h => h1 ((hcond0_1 t).mp h)) j).trans ?_
      rw [colRe_blk m c t j, hT]
      exact (upto_zero 10 (fun lt => tileRe (arrS m c) (arrA m c) (arrB m c) (arrC m c) (arrD m c) (coreTile p lt) j) (by norm_num)).symm
    · refine (first_im c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) ((hcond0_0 t).mpr h0) (fun h => h1 ((hcond0_1 t).mp h)) j).trans ?_
      rw [colIm_blk m c t j, hT]
      exact (upto_zero 10 (fun lt => tileIm (arrS m c) (arrA m c) (arrB m c) (arrC m c) (arrD m c) (coreTile p lt) j) (by norm_num)).symm
  | succ k ih =>
    intro hk t ht j
    have h0 : ¬t.val % 10 = 0 := by omega
    have hlt : t.val - 1 < cfg0.N := Nat.lt_of_le_of_lt (Nat.sub_le _ _) t.isLt
    have hprev : lane (outsAt0 m c (t.val - 1) hlt).2 (reLane j) = accRe (arrS m c) (arrA m c) (arrB m c) (arrC m c) (arrD m c) p k j
        ∧ lane (outsAt0 m c (t.val - 1) hlt).2 (imLane j) = accIm (arrS m c) (arrA m c) (arrB m c) (arrC m c) (arrD m c) p k j :=
      ih (by omega) ⟨t.val - 1, hlt⟩ (by show t.val - 1 = 10 * p.val + k; omega) j
    have hT : tileOf t = coreTile p ⟨k + 1, by omega⟩ := Fin.ext (by show t.val = p.val * 10 + (k + 1); omega)
    by_cases h1 : t.val % 10 = 9
    · rw [outsAt0_C m c t h0 h1]
      dsimp only
      constructor
      · refine (last_re c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) (outsAt0 m c (t.val - 1) hlt).2 (fun h => h0 ((hcond0_0 t).mp h)) ((hcond0_1 t).mpr h1) j).trans ?_
        rw [hprev.1, colRe_blk m c t j, hT]
        exact (upto_succ 10 (fun lt => tileRe (arrS m c) (arrA m c) (arrB m c) (arrC m c) (arrD m c) (coreTile p lt) j) k (by omega)).symm
      · refine (last_im c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) (outsAt0 m c (t.val - 1) hlt).2 (fun h => h0 ((hcond0_0 t).mp h)) ((hcond0_1 t).mpr h1) j).trans ?_
        rw [hprev.2, colIm_blk m c t j, hT]
        exact (upto_succ 10 (fun lt => tileIm (arrS m c) (arrA m c) (arrB m c) (arrC m c) (arrD m c) (coreTile p lt) j) k (by omega)).symm
    · rw [outsAt0_B m c t h0 h1]
      dsimp only
      constructor
      · refine (mid_re c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) (outsAt0 m c (t.val - 1) hlt).2 (fun h => h0 ((hcond0_0 t).mp h)) (fun h => h1 ((hcond0_1 t).mp h)) j).trans ?_
        rw [hprev.1, colRe_blk m c t j, hT]
        exact (upto_succ 10 (fun lt => tileRe (arrS m c) (arrA m c) (arrB m c) (arrC m c) (arrD m c) (coreTile p lt) j) k (by omega)).symm
      · refine (mid_im c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) (outsAt0 m c (t.val - 1) hlt).2 (fun h => h0 ((hcond0_0 t).mp h)) (fun h => h1 ((hcond0_1 t).mp h)) j).trans ?_
        rw [hprev.2, colIm_blk m c t j, hT]
        exact (upto_succ 10 (fun lt => tileIm (arrS m c) (arrA m c) (arrB m c) (arrC m c) (arrD m c) (coreTile p lt) j) k (by omega)).symm

/-- After a core's last tile (grid position `10·p + 9`) every lane of the output's staging block holds the core's total. -/
theorem out_last (t : Fin cfg0.N) (h9 : t.val % 10 = 9) (p : Fin 2) (hp : t.val = 10 * p.val + 9) (y : S1x1x128.Idx) :
    ((outsAt0 m c t.val t.isLt).1 : S1x1x128.Idx → EReal) y
      = coreTotal (arrS m c) (arrA m c) (arrB m c) (arrC m c) (arrD m c) p := by
  have h0 : ¬t.val % 10 = 0 := by omega
  have hlt : t.val - 1 < cfg0.N := Nat.lt_of_le_of_lt (Nat.sub_le _ _) t.isLt
  have hinv := acc_inv m c p 9 (Nat.le_refl 9) t hp
  rw [outsAt0_C m c t h0 h9] at hinv ⊢
  dsimp only at hinv ⊢
  refine (last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (xblk0 m c t) (xblk1 m c t) (xblk2 m c t) (xblk3 m c t) (xblk4 m c t) (outsAt0 m c (t.val - 1) hlt).2 (fun h => h0 ((hcond0_0 t).mp h)) ((hcond0_1 t).mpr h9) y).trans ?_
  unfold coreTotal
  rw [Finset.sum_congr rfl fun j _ => (hinv j).1, Finset.sum_congr rfl fun j _ => (hinv j).2]

end Cert.KernelIdeal.Body

end
-- ==== Proof.KValue.lean ====
/-
  From the two cores' output blocks to the kernel's result.  The output array has one block of 128 lanes per core;
  a core's block is written back once, after the core's last tile, and then holds the core's total in every lane.
  The host reads lane 0 of each block, adds the two numbers and divides by the number of terms.
-/
import proofs.«425640_j24386824307099_4_alg».proof.Proof.Gen.KernelIdeal.Frame
import proofs.«425640_j24386824307099_4_alg».proof.Proof.Spec
import proofs.«425640_j24386824307099_4_alg».proof.Proof.KBody
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.CplxMse Cert.KernelIdeal.Body
open Idealize.ShloMosaic.Pipeline (Dat)

variable (m : (ℓ : Loc nD τ sig) → Buf (Elt Ideal) ℓ) (ρ : Dev nD → PrngReg) (c : Dev nD)

/-- Core `p`'s total, of the five packed input arrays as the region finds them. -/
abbrev coreSum (p : Fin 2) : EReal := coreTotal (arrS m c) (arrA m c) (arrB m c) (arrC m c) (arrD m c) p

/-- The output array once both cores are done: block `p` holds core `p`'s total in every lane. -/
def totals : S2x1x128.Idx → EReal := fun i => coreSum m c ⟨(i 0).val, (i 0).isLt⟩

/-- The output's index map over the grid: point `t` (core `t / 10`, tile `t % 10`) addresses block `t / 10`. -/
theorem out_index : ∀ t : Fin cfg0.N, win0_5.index t (0 : Fin 3) = t.val / 10 ∧ win0_5.index t (1 : Fin 3) = 0 ∧ win0_5.index t (2 : Fin 3) = 0 :=
  (by decide +kernel : ∀ t : Fin grid0.N, _)

/-- What a core's last tile writes back is its block of `totals`. -/
theorem flushed_eq (t : Fin cfg0.N) (hf : (cfg0.win 5).flush t = true) :
    (dats m 0 c).flushed 5 t = ((cfg0.win 5).blk t).view.read (Elt Ideal) (totals m c) := by
  have h9 : t.val % 10 = 9 := (flush0_5 t).mp hf
  have hN : t.val < 20 := lt_of_lt_of_eq t.isLt (show cfg0.N = 20 from N_0)
  obtain ⟨e0, e1, e2⟩ := out_index t
  show (cfg0.win 5).cut (grid0.coords t) ((dats m 0 c).after 5 t) = _
  rw [after0_5]
  funext y
  show ((outsAt0 m c t.val t.isLt).1 : S1x1x128.Idx → EReal) y = totals m c (((cfg0.win 5).blk t).view.emb y)
  rw [out_last m c t h9 ⟨t.val / 10, by omega⟩ (by show t.val = 10 * (t.val / 10) + 9; omega) y]
  unfold totals
  refine congrArg (coreSum m c) (Fin.ext ?_)
  show t.val / 10 = win0_5.index t (0 : Fin 3) * 1 + 1 * (y 0).val
  have hy : (y 0).val < 1 := (y 0).isLt
  omega

/-- An index of the output array is in point `t`'s block iff each coordinate is in the block's range. -/
theorem mem_blk (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v30).slice (win0_5.rect t)).set ↔ _
  rw [View.set_slice_whole, Rect.mem_set_unit]
  exact Iff.rfl

/-- Every index of the output array lies in the block some core's last tile writes back. -/
theorem cover (i : S2x1x128.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 128 := (i 2).isLt
  have hN : cfg0.N = 20 := N_0
  let t : Fin cfg0.N := ⟨10 * (i 0).val + 9, by omega⟩
  have htv : t.val = 10 * (i 0).val + 9 := rfl
  obtain ⟨e0, e1, e2⟩ := out_index t
  refine ⟨t, (flush0_5 t).mpr (by omega), ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 128 ≤ (i 2).val ∧ (i 2).val < win0_5.index t (2 : Fin 3) * 128 + 128; omega

/-- The output array after the run. -/
theorem final : (dats m 0 c).arrAt 5 cfg0.N = totals m c :=
  (dats m 0 c).arrAt_eq_of_cover 5 (totals m c) (fun t hf => flushed_eq m c t hf) (cover)

/-- A rank-1 index is its one coordinate, -/
def idxEquiv1 {n : Nat} : (⟨1, ![n]⟩ : Shape).Idx ≃ Fin n where
  toFun i := i 0
  invFun p := ix1 p
  left_inv i := (eq_ix1 i).symm
  right_inv _ := rfl
/-- so a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Lane 0 of each core's block, as a vector of two numbers: the two cores' totals. -/
theorem lanes0 (p : Fin 2) :
    shapeCast S2 (extractStridedSlice S2x1x1 ![0, 0, 0] (totals m c) slices_S2x1x128_S2x1x1_0_0_0) shapeCasts_S2x1x1_S2 (ix1 p) = coreSum m c p := by
  rw [shapeCast_apply _ shapeCasts_S2x1x1_S2 (ix1 p) (ix3 p (0 : Fin 1) (0 : Fin 1))
    (by rewrite [Shape.rowMajor_val_three, Shape.rowMajor_val_one]; show (p.val * 1 + 0) * 1 + 0 = p.val; omega)]
  rw [extractStridedSlice_apply ![0, 0, 0] (totals m c) slices_S2x1x128_S2x1x1_0_0_0 (ix3 p (0 : Fin 1) (0 : Fin 1)) (ix3 p (0 : Fin 1) (0 : Fin 128))
    (fun a => match a with
      | ⟨0, _⟩ => by show p.val = 0 + p.val; omega
      | ⟨1, _⟩ => by show 0 = 0 + 0; omega
      | ⟨2, _⟩ => by show 0 = 0 + 0; omega)]
  rfl

/-- The kernel's result: the tail's operations over the output array give the mean of the two cores' totals. -/
theorem result_eq : Pipeline.afterTail₀ cfgs (dats m) 0 (V0 m) [hostOps1] c main_v34 = mean (∑ p : Fin 2, coreSum m c p) := by
  unfold Pipeline.afterTail₀
  show StableHlo.after hostOps1 _ (Proc.devRef .tc main_v34) = _
  after_results
  have hW : Pipeline.withArrays (cfgs 0).spec c (V0 m c) (fun w => (dats m 0 c).arrAt w (cfgs 0).N) (Proc.tc.devRef main_v30) = totals m c :=
    (Pipeline.withArrays_arr spec0 launch0.win.arr_inj c _ _ 5).trans (final m c)
  generalize Pipeline.withArrays (cfgs 0).spec c (V0 m c) (fun w => (dats m 0 c).arrAt w (cfgs 0).N) (Proc.tc.devRef main_v30) = W at hW
  subst hW
  unfold mean
  refine congrArg (fun z => Host.divf (F := Ideal) z (constant (F := Ideal) S_ .f32 0x4AC35000#32)) ?_
  funext i
  rw [hostReduceAdd_apply, Ideal.hostReduceAdd_total reducesTo_S2_S_d0 (fun b => b.elim0)]
  show Ideal.ofBits .f32 0x00000000#32 + ∑ k : S2.Idx, shapeCast S2 (extractStridedSlice S2x1x1 ![0, 0, 0] (totals m c) slices_S2x1x128_S2x1x1_0_0_0) shapeCasts_S2x1x1_S2 k = _
  rw [Ideal.ofBits_zero_f32, zero_add, sum_idx1]
  exact Finset.sum_congr rfl fun p _ => lanes0 m c p

/-- The kernel's run, read: the result is the mean of the two cores' totals, and the arguments are unchanged. -/
theorem run : θ_run defs (onTc (τ := τ) (main (F := Ideal))) ⟨m, fun _ => 0, ρ⟩ (fun r => ∀ c : Dev nD,
      r.2.mem ((c.tc : Thread nD τ).loc main_v34) = mean (∑ p : Fin 2, coreSum m c p)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v34 (Pipeline.mem_restRefs_of main_v34 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefGather.lean ====
/-
  The reference's four gathered operands and its signal difference, as the specification's planar arrays.  The
  reference wraps a negative index word by the table's length and gathers along the table's position axis (a start
  index outside the table would be clamped); with every word in range the wrap is the identity and nothing is
  clamped, so entry (b, c, l, part) is the table's entry (b, c, row named by the word, part), or zero under the mask.
-/
import proofs.«425640_j24386824307099_4_alg».proof.Proof.Gen.ReferenceIdeal.Read
import proofs.«425640_j24386824307099_4_alg».proof.Proof.Spec
import Idealize.ShloMosaic.Lib.ValueIdx
import Idealize.ShloMosaic.Lib.Pipeline.Value
import Idealize.ShloMosaic.Lib.StableHlo.Predicate

set_option maxRecDepth 16384

noncomputable section

namespace Cert.ReferenceIdeal.Gathered

open Cert.ReferenceIdeal Cert.ReferenceIdeal.Gen Cert.ReferenceIdeal.Read Idealize.ShloMosaic Idealize.ShloMosaic.TcCoe Idealize.SL.Sem
open Idealize.ShloMosaic.StableHlo Idealize.ShloMosaic.ValueIdx Cert.CplxMse

/-- The reference's one gather: table [4, 16, 10000, 2], start indices an [100000, 1] column, position axis collapsed. -/
abbrev gd := gather_S4x16x10000x2_S100000x1_S4x16x100000x2_013_2_n_n_2_1_41612

/-! ## The gather read at an index -/

/-- Result position (b, c, l, p) reads its start index at row `l` of the index column. -/
theorem siIdx_eq (b : Fin 4) (c : Fin 16) (l : Fin 100000) (p : Fin 2) :
    gd.siIdx (ix4 b c l p) ⟨0, by decide⟩ = ix2 l 0 := by
  funext e
  match e with
  | ⟨0, _⟩ => rfl
  | ⟨1, _⟩ => rfl

/-- Entry (b, c, l, p) of the gather is the table's entry (b, c, r, p), `r` the start index of row `l` read as a signed
    integer and clamped into the table's rows: axes 0, 1, 3 are offset axes carrying the result's own coordinates, axis 2
    is collapsed and carries the clamped start. -/
theorem gather_apply {α : Type} {w : Nat} (x : S4x16x10000x2.Idx → α) (idx : IVec S100000x1 w)
    (b : Fin 4) (c : Fin 16) (l : Fin 100000) (p : Fin 2) :
    Host.gather gd x idx (ix4 b c l p) = x (ix4 b c ⟨min (idx (ix2 l 0)).toInt.toNat 9999, by omega⟩ p) := by
  unfold Host.gather
  congr 1
  funext a
  refine Fin.ext ?_
  match a with
  | ⟨0, _⟩ => show 0 + 0 + b.val = b.val; omega
  | ⟨1, _⟩ => show 0 + 0 + c.val = c.val; omega
  | ⟨2, _⟩ =>
    show min (idx (gd.siIdx (ix4 b c l p) ⟨0, by decide⟩)).toInt.toNat 9999 + 0 + 0 = min (idx (ix2 l 0)).toInt.toNat 9999
    rw [siIdx_eq]
    rfl
  | ⟨3, _⟩ => show 0 + 0 + p.val = p.val; omega

/-! ## An index word below the table's length -/

/-- Such a word is not negative, so the wrap by the table's length leaves it alone. -/
theorem word_wrap (w : BitVec 32) (hw : w.toNat < 10000) :
    Scalar.select (IntOp.cmpi .slt w 0#32) (IntOp.addi w 10000#32) w = w := by
  have h : ¬ IntOp.cmpi .slt w 0#32 = 1#1 := by
    rw [Predicate.slt_iff_toNat (by omega) (by decide)]
    simp
  unfold Scalar.select
  exact if_neg h

/-- Read as a signed integer it is its own value, and the clamp into the table's rows leaves it alone. -/
theorem word_clamp (w : BitVec 32) (hw : w.toNat < 10000) : min w.toInt.toNat 9999 = w.toNat := by
  rw [Predicate.toInt_eq_toNat_of_lt (by omega), Int.toNat_natCast]
  omega

/-- So a gather by a column holding the index words reads the rows the words name. -/
theorem gather_words (T : S4x16x10000x2.Idx → EReal) (xi : Words) (k : Fin 2) (col : IVec S100000x1 32)
    (hin : InRange xi) (b : Fin 4) (c : Fin 16) (l : Fin 100000) (p : Fin 2) (hcol : col (ix2 l 0) = xi (ix2 l k)) :
    Host.gather gd T col (ix4 b c l p) = T (ix4 b c (rowOf (xi (ix2 l k))) p) := by
  have hrow : (⟨min (col (ix2 l 0)).toInt.toNat 9999, by omega⟩ : Fin 10000) = rowOf (xi (ix2 l k)) := by
    refine Fin.ext ?_
    show min (col (ix2 l 0)).toInt.toNat 9999 = (xi (ix2 l k)).toNat % 10000
    rw [hcol, word_clamp _ (hin l k), Nat.mod_eq_of_lt (hin l k)]
  rw [gather_apply, hrow]

/-! ## The index columns and the masks, read at an index -/

section stages
variable (x4 : (⟨S100000x2, .i32⟩ : BufTy).Contents (Elt Ideal)) (x5 : (⟨S100000x2, .f32⟩ : BufTy).Contents (Elt Ideal))

/-- Word column 0, flattened: row `l` is the word at (l, 0). -/
theorem v3_at (l : Fin 100000) : val_main_v3 (F := Ideal) x4 (ix1 l) = x4 (ix2 l 0) := by
  rw [val_main_v3_apply, val_main_v2_apply]
  congr 1
  funext a
  match a with
  | ⟨0, _⟩ => exact Fin.ext (Nat.div_one l.val)
  | ⟨1, _⟩ => rfl

/-- Word column 1, flattened: row `l` is the word at (l, 1). -/
theorem v5_at (l : Fin 100000) : val_main_v5 (F := Ideal) x4 (ix1 l) = x4 (ix2 l 1) := by
  rw [val_main_v5_apply, val_main_v4_apply]
  congr 1
  funext a
  match a with
  | ⟨0, _⟩ => exact Fin.ext (Nat.div_one l.val)
  | ⟨1, _⟩ => rfl

/-- The start-index column of the first gather (word column 0, negative words wrapped): with the words in range, row `l` is the word itself. -/
theorem col21_at (hin : InRange x4) (l : Fin 100000) : val_main_v21 (F := Ideal) x4 (ix2 l 0) = x4 (ix2 l 0) := by
  have hi : idx_main_v21 (ix2 l 0) = ix1 l := by
    funext a
    match a with
    | ⟨0, _⟩ => rfl
  rw [val_main_v21_apply, hi, val_main_v20_apply, val_main_v17_apply, val_main_v19_apply, val_main_v16_apply,
    val_main_c_apply, val_main_v18_apply, val_main_c_1_apply, v3_at]
  exact word_wrap _ (hin l 0)

/-- The start-index column of the second gather: word column 1. -/
theorem col29_at (hin : InRange x4) (l : Fin 100000) : val_main_v29 (F := Ideal) x4 (ix2 l 0) = x4 (ix2 l 1) := by
  have hi : idx_main_v29 (ix2 l 0) = ix1 l := by
    funext a
    match a with
    | ⟨0, _⟩ => rfl
  rw [val_main_v29_apply, hi, val_main_v28_apply, val_main_v25_apply, val_main_v27_apply, val_main_v24_apply,
    val_main_c_3_apply, val_main_v26_apply, val_main_c_4_apply, v5_at]
  exact word_wrap _ (hin l 1)

/-- The start-index column of the third gather: word column 0. -/
theorem col37_at (hin : InRange x4) (l : Fin 100000) : val_main_v37 (F := Ideal) x4 (ix2 l 0) = x4 (ix2 l 0) := by
  have hi : idx_main_v37 (ix2 l 0) = ix1 l := by
    funext a
    match a with
    | ⟨0, _⟩ => rfl
  rw [val_main_v37_apply, hi, val_main_v36_apply, val_main_v33_apply, val_main_v35_apply, val_main_v32_apply,
    val_main_c_6_apply, val_main_v34_apply, val_main_c_7_apply, v3_at]
  exact word_wrap _ (hin l 0)

/-- The start-index column of the fourth gather: word column 1. -/
theorem col45_at (hin : InRange x4) (l : Fin 100000) : val_main_v45 (F := Ideal) x4 (ix2 l 0) = x4 (ix2 l 1) := by
  have hi : idx_main_v45 (ix2 l 0) = ix1 l := by
    funext a
    match a with
    | ⟨0, _⟩ => rfl
  rw [val_main_v45_apply, hi, val_main_v44_apply, val_main_v41_apply, val_main_v43_apply, val_main_v40_apply,
    val_main_c_9_apply, val_main_v42_apply, val_main_c_10_apply, v5_at]
  exact word_wrap _ (hin l 1)

/-- The comparison of weight column 0 with zero, flattened: row `l` is the mask bit of (l, 0). -/
theorem v9_at (l : Fin 100000) : val_main_v9 (F := Ideal) x5 (ix1 l) = maskBit x5 l 0 := by
  have hi : idx_main_v6 (idx_main_v7 (ix1 l)) = ix2 l 0 := by
    funext a
    match a with
    | ⟨0, _⟩ => exact Fin.ext (Nat.div_one l.val)
    | ⟨1, _⟩ => rfl
  rw [val_main_v9_apply, val_main_v7_apply, val_main_v6_apply, hi, val_main_v8_apply, val_main_cst_apply]
  rfl

/-- The comparison of weight column 1 with zero: row `l` is the mask bit of (l, 1). -/
theorem v14_at (l : Fin 100000) : val_main_v14 (F := Ideal) x5 (ix1 l) = maskBit x5 l 1 := by
  have hi : idx_main_v11 (idx_main_v12 (ix1 l)) = ix2 l 1 := by
    funext a
    match a with
    | ⟨0, _⟩ => exact Fin.ext (Nat.div_one l.val)
    | ⟨1, _⟩ => rfl
  rw [val_main_v14_apply, val_main_v12_apply, val_main_v11_apply, hi, val_main_v13_apply, val_main_cst_0_apply]
  rfl

/-- Spread over batch, channel and part, the mask of column 0 at (b, c, l, p) is the bit of (l, 0): first and third select, -/
theorem mask0_at (b : Fin 4) (c : Fin 16) (l : Fin 100000) (p : Fin 2) :
    val_main_call0_v0 (F := Ideal) x5 (ix4 b c l p) = maskBit x5 l 0 := by
  have hi : idx_main_v10 (idx_main_call0_v0 (ix4 b c l p)) = ix1 l := by
    funext a
    match a with
    | ⟨0, _⟩ => rfl
  rw [val_main_call0_v0_apply, val_main_v10_apply, hi, v9_at]

theorem mask2_at (b : Fin 4) (c : Fin 16) (l : Fin 100000) (p : Fin 2) :
    val_main_call2_v0 (F := Ideal) x5 (ix4 b c l p) = maskBit x5 l 0 := by
  have hi : idx_main_v10 (idx_main_call2_v0 (ix4 b c l p)) = ix1 l := by
    funext a
    match a with
    | ⟨0, _⟩ => rfl
  rw [val_main_call2_v0_apply, val_main_v10_apply, hi, v9_at]

/-- and the mask of column 1 the bit of (l, 1): second and fourth select. -/
theorem mask1_at (b : Fin 4) (c : Fin 16) (l : Fin 100000) (p : Fin 2) :
    val_main_call1_v0 (F := Ideal) x5 (ix4 b c l p) = maskBit x5 l 1 := by
  have hi : idx_main_v15 (idx_main_call1_v0 (ix4 b c l p)) = ix1 l := by
    funext a
    match a with
    | ⟨0, _⟩ => rfl
  rw [val_main_call1_v0_apply, val_main_v15_apply, hi, v14_at]

theorem mask3_at (b : Fin 4) (c : Fin 16) (l : Fin 100000) (p : Fin 2) :
    val_main_call3_v0 (F := Ideal) x5 (ix4 b c l p) = maskBit x5 l 1 := by
  have hi : idx_main_v15 (idx_main_call3_v0 (ix4 b c l p)) = ix1 l := by
    funext a
    match a with
    | ⟨0, _⟩ => rfl
  rw [val_main_call3_v0_apply, val_main_v15_apply, hi, v14_at]

end stages

/-! ## A masked gather is the specification's gathered array -/

/-- Gather table `T` along its position axis by a column holding word column `k`, then put zero where the mask bit of
    column `k` is set: that is `gathered T xi ks k`. -/
theorem masked_gather (T : Planar 10000) (xi : Words) (ks : (⟨2, ![100000, 2]⟩ : Shape).Idx → EReal) (k : Fin 2)
    (m : IVec S4x16x100000x2 1) (z : S4x16x100000x2.Idx → EReal) (col : IVec S100000x1 32) (hin : InRange xi)
    (hm : ∀ (b : Fin 4) (c : Fin 16) (l : Fin 100000) (p : Fin 2), m (ix4 b c l p) = maskBit ks l k)
    (hz : ∀ i, z i = Ideal.ofBits .f32 0x00000000#32)
    (hcol : ∀ l : Fin 100000, col (ix2 l 0) = xi (ix2 l k)) :
    select m z (Host.gather gd T col) = gathered T xi ks k := by
  funext i
  obtain ⟨b, c, l, p, rfl⟩ : ∃ (b : Fin 4) (c : Fin 16) (l : Fin 100000) (p : Fin 2), i = ix4 b c l p :=
    ⟨i 0, i 1, i 2, i 3, eq_ix4 i⟩
  show Scalar.select (m (ix4 b c l p)) (z (ix4 b c l p)) (Host.gather gd T col (ix4 b c l p))
    = Scalar.select (maskBit ks l k) (Ideal.ofBits .f32 0x00000000#32) (T (ix4 b c (rowOf (xi (ix2 l k))) p))
  rw [hm, hz, gather_words T xi k col hin b c l p (hcol l)]

variable (x0 x2 : (⟨S4x16x10000x2, .f32⟩ : BufTy).Contents (Elt Ideal)) (x1 x3 : (⟨S4x16x100000x2, .f32⟩ : BufTy).Contents (Elt Ideal))
  (x4 : (⟨S100000x2, .i32⟩ : BufTy).Contents (Elt Ideal)) (x5 : (⟨S100000x2, .f32⟩ : BufTy).Contents (Elt Ideal))

/-- The signal difference. -/
theorem signal_eq : val_main_v1 (F := Ideal) x1 x3 = diff x1 x3 := by
  funext i
  rw [val_main_v1_apply]
  rfl
/-- First factor's difference rows: difference table, word column 0. -/
theorem diff0_eq (hin : InRange x4) : val_main_v23 (F := Ideal) x0 x2 x4 x5 = gathered (diff x0 x2) x4 x5 0 :=
  masked_gather (diff x0 x2) x4 x5 0 (val_main_call0_v0 (F := Ideal) x5) (val_main_call0_v1 (F := Ideal))
    (val_main_v21 (F := Ideal) x4) hin (mask0_at x5) (fun i => (val_main_call0_v1_apply (F := Ideal) i).trans (val_main_cst_2_apply (F := Ideal) _))
    (col21_at x4 hin)
/-- Difference table, word column 1. -/
theorem diff1_eq (hin : InRange x4) : val_main_v31 (F := Ideal) x0 x2 x4 x5 = gathered (diff x0 x2) x4 x5 1 :=
  masked_gather (diff x0 x2) x4 x5 1 (val_main_call1_v0 (F := Ideal) x5) (val_main_call1_v1 (F := Ideal))
    (val_main_v29 (F := Ideal) x4) hin (mask1_at x5) (fun i => (val_main_call1_v1_apply (F := Ideal) i).trans (val_main_cst_5_apply (F := Ideal) _))
    (col29_at x4 hin)
/-- Target table, word column 0. -/
theorem target0_eq (hin : InRange x4) : val_main_v39 (F := Ideal) x2 x4 x5 = gathered x2 x4 x5 0 :=
  masked_gather x2 x4 x5 0 (val_main_call2_v0 (F := Ideal) x5) (val_main_call2_v1 (F := Ideal))
    (val_main_v37 (F := Ideal) x4) hin (mask2_at x5) (fun i => (val_main_call2_v1_apply (F := Ideal) i).trans (val_main_cst_8_apply (F := Ideal) _))
    (col37_at x4 hin)
/-- Target table, word column 1. -/
theorem target1_eq (hin : InRange x4) : val_main_v47 (F := Ideal) x2 x4 x5 = gathered x2 x4 x5 1 :=
  masked_gather x2 x4 x5 1 (val_main_call3_v0 (F := Ideal) x5) (val_main_call3_v1 (F := Ideal))
    (val_main_v45 (F := Ideal) x4) hin (mask3_at x5) (fun i => (val_main_call3_v1_apply (F := Ideal) i).trans (val_main_cst_11_apply (F := Ideal) _))
    (col45_at x4 hin)

end Cert.ReferenceIdeal.Gathered

end
-- ==== Proof.RefTotal.lean ====
/-
  The reference's arithmetic after the gathers: the two complex products, the residual, its square, the sum over
  the two parts and then over (b, c, l) — the planar total of the specification, over whatever the five operand
  arrays hold — and the division by the number of terms.

  The road.  Each of the eight real arrays the products are formed from is one part (real or imaginary) of one of the
  four gathered operands, cut out as a slice and flattened to rank 3; read at (b, c, l) it is the operand at
  (b, c, l, part).  The two products a·conj d and c·conj b are put back together part by part (a join along the last
  axis of two arrays of extent one), so the residual at (b, c, l, 0) is the specification's real part and at
  (b, c, l, 1) its imaginary part, operation for operation.  The sum over the part axis then is the sum of the two
  squares, the sum over the rank-3 index set is the triple sum over the coordinates, and both sums start from zero.
-/
import proofs.«425640_j24386824307099_4_alg».proof.Proof.Gen.ReferenceIdeal.Run
import proofs.«425640_j24386824307099_4_alg».proof.Proof.Gen.ReferenceIdeal.Read
import proofs.«425640_j24386824307099_4_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Total

open Cert.ReferenceIdeal Cert.ReferenceIdeal.Gen Cert.ReferenceIdeal.Read Idealize.ShloMosaic Idealize.ShloMosaic.TcCoe Idealize.SL.Sem
open Idealize.ShloMosaic.StableHlo Idealize.ShloMosaic.ValueIdx Cert.CplxMse
open scoped BigOperators

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Position (b, c, l) of the flattened array, split back into coordinates -/

theorem unflat0 {b c l : Nat} (hb : b < 4) (hc : c < 16) (hl : l < 100000) :
    ((b * 16 + c) * 100000 + l) / 1600000 = b := by omega
theorem unflat1 {b c l : Nat} (hb : b < 4) (hc : c < 16) (hl : l < 100000) :
    ((b * 16 + c) * 100000 + l) / 100000 % 16 = c := by omega
theorem unflat2 {b c l : Nat} (hb : b < 4) (hc : c < 16) (hl : l < 100000) :
    ((b * 16 + c) * 100000 + l) / 1 % 100000 = l := by omega

variable (x0 x2 : (⟨S4x16x10000x2, .f32⟩ : BufTy).Contents (Elt Ideal)) (x1 x3 : (⟨S4x16x100000x2, .f32⟩ : BufTy).Contents (Elt Ideal))
  (x4 : (⟨S100000x2, .i32⟩ : BufTy).Contents (Elt Ideal)) (x5 : (⟨S100000x2, .f32⟩ : BufTy).Contents (Elt Ideal))

section entry
variable (b : Fin 4) (c : Fin 16) (l : Fin 100000)

/-! ## The eight real arrays at (b, c, l): one part of one operand

Each is a slice of one part of a rank-4 operand, flattened to rank 3.  The flattening reads position
(16·b + c)·100000 + l of the slice, which is its entry (b, c, l, 0); the slice reads the operand there at the part
it cuts out. -/

/-- The real part of a. -/
theorem v49_at : val_main_v49 (F := Ideal) x0 x2 x4 x5 (ix3 b c l) = val_main_v23 (F := Ideal) x0 x2 x4 x5 (ix4 b c l 0) := by
  rw [val_main_v49_apply, val_main_v48_apply]
  refine congrArg (val_main_v23 (F := Ideal) x0 x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The imaginary part of a. -/
theorem v51_at : val_main_v51 (F := Ideal) x0 x2 x4 x5 (ix3 b c l) = val_main_v23 (F := Ideal) x0 x2 x4 x5 (ix4 b c l 1) := by
  rw [val_main_v51_apply, val_main_v50_apply]
  refine congrArg (val_main_v23 (F := Ideal) x0 x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The real part of d. -/
theorem v53_at : val_main_v53 (F := Ideal) x2 x4 x5 (ix3 b c l) = val_main_v47 (F := Ideal) x2 x4 x5 (ix4 b c l 0) := by
  rw [val_main_v53_apply, val_main_v52_apply]
  refine congrArg (val_main_v47 (F := Ideal) x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The imaginary part of d. -/
theorem v55_at : val_main_v55 (F := Ideal) x2 x4 x5 (ix3 b c l) = val_main_v47 (F := Ideal) x2 x4 x5 (ix4 b c l 1) := by
  rw [val_main_v55_apply, val_main_v54_apply]
  refine congrArg (val_main_v47 (F := Ideal) x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The real part of c. -/
theorem v67_at : val_main_v67 (F := Ideal) x2 x4 x5 (ix3 b c l) = val_main_v39 (F := Ideal) x2 x4 x5 (ix4 b c l 0) := by
  rw [val_main_v67_apply, val_main_v66_apply]
  refine congrArg (val_main_v39 (F := Ideal) x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The imaginary part of c. -/
theorem v69_at : val_main_v69 (F := Ideal) x2 x4 x5 (ix3 b c l) = val_main_v39 (F := Ideal) x2 x4 x5 (ix4 b c l 1) := by
  rw [val_main_v69_apply, val_main_v68_apply]
  refine congrArg (val_main_v39 (F := Ideal) x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The real part of b. -/
theorem v71_at : val_main_v71 (F := Ideal) x0 x2 x4 x5 (ix3 b c l) = val_main_v31 (F := Ideal) x0 x2 x4 x5 (ix4 b c l 0) := by
  rw [val_main_v71_apply, val_main_v70_apply]
  refine congrArg (val_main_v31 (F := Ideal) x0 x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-- The imaginary part of b. -/
theorem v73_at : val_main_v73 (F := Ideal) x0 x2 x4 x5 (ix3 b c l) = val_main_v31 (F := Ideal) x0 x2 x4 x5 (ix4 b c l 1) := by
  rw [val_main_v73_apply, val_main_v72_apply]
  refine congrArg (val_main_v31 (F := Ideal) x0 x2 x4 x5) (funext fun a => Fin.ext ?_)
  match a with
  | ⟨0, _⟩ => exact unflat0 b.isLt c.isLt l.isLt
  | ⟨1, _⟩ => exact unflat1 b.isLt c.isLt l.isLt
  | ⟨2, _⟩ => exact unflat2 b.isLt c.isLt l.isLt
  | ⟨3, _⟩ => rfl

/-! ## The two products, joined part by part

A rank-3 array given a last axis of extent one reads, at (b, c, l, 0), the array at (b, c, l); the join of two such
arrays along the last axis reads the first at part 0 and the second at part 1. -/

/-- Real part of a·conj d, with its unit axis. -/
theorem v62_at : val_main_v62 (F := Ideal) x0 x2 x4 x5 (ix4 b c l 0) = val_main_v58 (F := Ideal) x0 x2 x4 x5 (ix3 b c l) := by
  rw [val_main_v62_apply]
  exact congrArg (val_main_v58 (F := Ideal) x0 x2 x4 x5)
    (funext fun a => match a with | ⟨0, _⟩ => rfl | ⟨1, _⟩ => rfl | ⟨2, _⟩ => rfl)

/-- Imaginary part of a·conj d, with its unit axis. -/
theorem v63_at : val_main_v63 (F := Ideal) x0 x2 x4 x5 (ix4 b c l 0) = val_main_v61 (F := Ideal) x0 x2 x4 x5 (ix3 b c l) := by
  rw [val_main_v63_apply]
  exact congrArg (val_main_v61 (F := Ideal) x0 x2 x4 x5)
    (funext fun a => match a with | ⟨0, _⟩ => rfl | ⟨1, _⟩ => rfl | ⟨2, _⟩ => rfl)

/-- Real part of c·conj b, with its unit axis. -/
theorem v80_at : val_main_v80 (F := Ideal) x0 x2 x4 x5 (ix4 b c l 0) = val_main_v76 (F := Ideal) x0 x2 x4 x5 (ix3 b c l) := by
  rw [val_main_v80_apply]
  exact congrArg (val_main_v76 (F := Ideal) x0 x2 x4 x5)
    (funext fun a => match a with | ⟨0, _⟩ => rfl | ⟨1, _⟩ => rfl | ⟨2, _⟩ => rfl)

/-- Imaginary part of c·conj b, with its unit axis. -/
theorem v81_at : val_main_v81 (F := Ideal) x0 x2 x4 x5 (ix4 b c l 0) = val_main_v79 (F := Ideal) x0 x2 x4 x5 (ix3 b c l) := by
  rw [val_main_v81_apply]
  exact congrArg (val_main_v79 (F := Ideal) x0 x2 x4 x5)
    (funext fun a => match a with | ⟨0, _⟩ => rfl | ⟨1, _⟩ => rfl | ⟨2, _⟩ => rfl)

/-- a·conj d at part 0 is its real part … -/
theorem v64_part0 : val_main_v64 (F := Ideal) x0 x2 x4 x5 (ix4 b c l 0) = val_main_v62 (F := Ideal) x0 x2 x4 x5 (ix4 b c l 0) := by
  unfold val_main_v64
  exact concatenate_pair_apply_left (t := S4x16x100000x2) (s₁ := S4x16x100000x1) (s₂ := S4x16x100000x1) 3 _ _
    concatenates_S4x16x100000x1_S4x16x100000x1_S4x16x100000x2_d3 (ix4 b c l 0) rfl (ix4 b c l 0)
    (fun a => match a with | ⟨0, _⟩ => rfl | ⟨1, _⟩ => rfl | ⟨2, _⟩ => rfl | ⟨3, _⟩ => rfl)

/-- … and at part 1 its imaginary part. -/
theorem v64_part1 : val_main_v64 (F := Ideal) x0 x2 x4 x5 (ix4 b c l 1) = val_main_v63 (F := Ideal) x0 x2 x4 x5 (ix4 b c l 0) := by
  unfold val_main_v64
  exact concatenate_pair_apply_right (t := S4x16x100000x2) (s₁ := S4x16x100000x1) (s₂ := S4x16x100000x1) 3 _ _
    concatenates_S4x16x100000x1_S4x16x100000x1_S4x16x100000x2_d3 (ix4 b c l 1) rfl rfl (ix4 b c l 0)
    (fun a => match a with
      | ⟨0, _⟩ => fun _ => rfl | ⟨1, _⟩ => fun _ => rfl | ⟨2, _⟩ => fun _ => rfl | ⟨3, _⟩ => fun h => absurd rfl h)
    rfl

/-- c·conj b at part 0 is its real part … -/
theorem v82_part0 : val_main_v82 (F := Ideal) x0 x2 x4 x5 (ix4 b c l 0) = val_main_v80 (F := Ideal) x0 x2 x4 x5 (ix4 b c l 0) := by
  unfold val_main_v82
  exact concatenate_pair_apply_left (t := S4x16x100000x2) (s₁ := S4x16x100000x1) (s₂ := S4x16x100000x1) 3 _ _
    concatenates_S4x16x100000x1_S4x16x100000x1_S4x16x100000x2_d3 (ix4 b c l 0) rfl (ix4 b c l 0)
    (fun a => match a with | ⟨0, _⟩ => rfl | ⟨1, _⟩ => rfl | ⟨2, _⟩ => rfl | ⟨3, _⟩ => rfl)

/-- … and at part 1 its imaginary part. -/
theorem v82_part1 : val_main_v82 (F := Ideal) x0 x2 x4 x5 (ix4 b c l 1) = val_main_v81 (F := Ideal) x0 x2 x4 x5 (ix4 b c l 0) := by
  unfold val_main_v82
  exact concatenate_pair_apply_right (t := S4x16x100000x2) (s₁ := S4x16x100000x1) (s₂ := S4x16x100000x1) 3 _ _
    concatenates_S4x16x100000x1_S4x16x100000x1_S4x16x100000x2_d3 (ix4 b c l 1) rfl rfl (ix4 b c l 0)
    (fun a => match a with
      | ⟨0, _⟩ => fun _ => rfl | ⟨1, _⟩ => fun _ => rfl | ⟨2, _⟩ => fun _ => rfl | ⟨3, _⟩ => fun h => absurd rfl h)
    rfl

/-! ## The residual, its square, and the sum over the two parts -/

/-- The residual's real part at (b, c, l): the specification's, operation for operation. -/
theorem v83_re : val_main_v83 (F := Ideal) x0 x1 x2 x3 x4 x5 (ix4 b c l 0)
    = resRe (val_main_v1 (F := Ideal) x1 x3 (ix4 b c l 0))
        (val_main_v23 (F := Ideal) x0 x2 x4 x5 (ix4 b c l 0)) (val_main_v23 (F := Ideal) x0 x2 x4 x5 (ix4 b c l 1))
        (val_main_v31 (F := Ideal) x0 x2 x4 x5 (ix4 b c l 0)) (val_main_v31 (F := Ideal) x0 x2 x4 x5 (ix4 b c l 1))
        (val_main_v39 (F := Ideal) x2 x4 x5 (ix4 b c l 0)) (val_main_v39 (F := Ideal) x2 x4 x5 (ix4 b c l 1))
        (val_main_v47 (F := Ideal) x2 x4 x5 (ix4 b c l 0)) (val_main_v47 (F := Ideal) x2 x4 x5 (ix4 b c l 1)) := by
  rw [val_main_v83_apply, val_main_v65_apply, v64_part0, v82_part0, v62_at, v80_at, val_main_v58_apply, val_main_v56_apply,
    val_main_v57_apply, val_main_v76_apply, val_main_v74_apply, val_main_v75_apply, v49_at, v51_at, v53_at, v55_at, v67_at,
    v69_at, v71_at, v73_at]
  rfl

/-- The residual's imaginary part at (b, c, l). -/
theorem v83_im : val_main_v83 (F := Ideal) x0 x1 x2 x3 x4 x5 (ix4 b c l 1)
    = resIm (val_main_v1 (F := Ideal) x1 x3 (ix4 b c l 1))
        (val_main_v23 (F := Ideal) x0 x2 x4 x5 (ix4 b c l 0)) (val_main_v23 (F := Ideal) x0 x2 x4 x5 (ix4 b c l 1))
        (val_main_v31 (F := Ideal) x0 x2 x4 x5 (ix4 b c l 0)) (val_main_v31 (F := Ideal) x0 x2 x4 x5 (ix4 b c l 1))
        (val_main_v39 (F := Ideal) x2 x4 x5 (ix4 b c l 0)) (val_main_v39 (F := Ideal) x2 x4 x5 (ix4 b c l 1))
        (val_main_v47 (F := Ideal) x2 x4 x5 (ix4 b c l 0)) (val_main_v47 (F := Ideal) x2 x4 x5 (ix4 b c l 1)) := by
  rw [val_main_v83_apply, val_main_v65_apply, v64_part1, v82_part1, v63_at, v81_at, val_main_v61_apply, val_main_v59_apply,
    val_main_v60_apply, val_main_v79_apply, val_main_v77_apply, val_main_v78_apply, v49_at, v51_at, v53_at, v55_at, v67_at,
    v69_at, v71_at, v73_at]
  rfl

/-- The sum over the part axis at (b, c, l): the two squares, added to a zero start. -/
theorem v85_at : val_main_v85 (F := Ideal) x0 x1 x2 x3 x4 x5 (ix3 b c l)
    = sqReP (val_main_v1 (F := Ideal) x1 x3) (val_main_v23 (F := Ideal) x0 x2 x4 x5) (val_main_v31 (F := Ideal) x0 x2 x4 x5)
          (val_main_v39 (F := Ideal) x2 x4 x5) (val_main_v47 (F := Ideal) x2 x4 x5) b c l
      + sqImP (val_main_v1 (F := Ideal) x1 x3) (val_main_v23 (F := Ideal) x0 x2 x4 x5) (val_main_v31 (F := Ideal) x0 x2 x4 x5)
          (val_main_v39 (F := Ideal) x2 x4 x5) (val_main_v47 (F := Ideal) x2 x4 x5) b c l := by
  have e0 : idx_main_v85 (ix3 b c l) 0 = ix4 b c l 0 :=
    funext fun a => match a with | ⟨0, _⟩ => rfl | ⟨1, _⟩ => rfl | ⟨2, _⟩ => rfl | ⟨3, _⟩ => rfl
  have e1 : idx_main_v85 (ix3 b c l) 1 = ix4 b c l 1 :=
    funext fun a => match a with | ⟨0, _⟩ => rfl | ⟨1, _⟩ => rfl | ⟨2, _⟩ => rfl | ⟨3, _⟩ => rfl
  rw [val_main_v85_apply, Fin.sum_univ_two, e0, e1, val_main_v84_apply, val_main_v84_apply, v83_re, v83_im,
    val_main_cst_12_apply, Ideal.ofBits_def, Ideal.ofBits_zero_f32, zero_add]
  rfl

end entry

/-- The sum over every (b, c, l), added to a zero start: the planar total. -/
theorem v86_eq : val_main_v86 (F := Ideal) x0 x1 x2 x3 x4 x5
    = fun _ => totalPlanar (val_main_v1 (F := Ideal) x1 x3) (val_main_v23 (F := Ideal) x0 x2 x4 x5) (val_main_v31 (F := Ideal) x0 x2 x4 x5)
        (val_main_v39 (F := Ideal) x2 x4 x5) (val_main_v47 (F := Ideal) x2 x4 x5) := by
  funext i
  rw [val_main_v86_apply, val_main_cst_13_apply, Ideal.ofBits_def, Ideal.ofBits_zero_f32, zero_add,
    sum_idx3 (n0 := 4) (n1 := 16) (n2 := 100000)]
  unfold totalPlanar
  refine Finset.sum_congr rfl fun b _ => Finset.sum_congr rfl fun c _ => Finset.sum_congr rfl fun l _ => ?_
  rw [v85_at]

/-- The reference's result is the mean of the planar total of its five operand arrays. -/
theorem result_eq :
    val_main_v87 (F := Ideal) x0 x1 x2 x3 x4 x5
      = mean (totalPlanar (val_main_v1 (F := Ideal) x1 x3) (val_main_v23 (F := Ideal) x0 x2 x4 x5) (val_main_v31 (F := Ideal) x0 x2 x4 x5)
          (val_main_v39 (F := Ideal) x2 x4 x5) (val_main_v47 (F := Ideal) x2 x4 x5)) := by
  unfold val_main_v87 mean
  rw [v86_eq]
  rfl

end Cert.ReferenceIdeal.Total

end
-- ==== Proof.lean ====
/-
  The two programs compute one number.  Both form, for every batch, channel and sample, the complex residual
  g = s − a·conj d − c·conj b  (s the difference of the two signals; a, b rows of the difference of the two tables
  and c, d rows of the target table, the rows named by the two columns of index words and zeroed under the masks),
  add up |g|² and divide by the number of terms.  The reference does it on planar arrays [batch, channel, sample,
  part]; the kernel packs (part, batch, channel) into 128 lanes, streams the samples in 20 tiles of 5000 rows, keeps
  per-lane partial sums on each of two cores and adds the lanes and the cores at the end.  With every index word in
  [0, 10000) — the stated precondition — both gathers read the same table rows (outside that range the kernel fills
  the row with a not-a-number pattern where the reference clamps the word, which is why the range is assumed).  The
  two totals are then one finite sum in two orders, equal by commutativity and associativity of addition on the
  extended reals; no other law is used, so finiteness of the float inputs is not needed.
-/
import proofs.«425640_j24386824307099_4_alg».proof.Defs
import proofs.«425640_j24386824307099_4_alg».proof.Proof.Gen.Kernel
import proofs.«425640_j24386824307099_4_alg».proof.Proof.Gen.Kernel.Skeleton
import proofs.«425640_j24386824307099_4_alg».proof.Proof.Gen.Kernel.Launch
import proofs.«425640_j24386824307099_4_alg».proof.Proof.Gen.Kernel.Points
import proofs.«425640_j24386824307099_4_alg».proof.Proof.Gen.Kernel.Frame
import proofs.«425640_j24386824307099_4_alg».proof.Proof.Gen.KernelIdeal
import proofs.«425640_j24386824307099_4_alg».proof.Proof.Gen.KernelIdeal.Skeleton
import proofs.«425640_j24386824307099_4_alg».proof.Proof.Gen.KernelIdeal.Launch
import proofs.«425640_j24386824307099_4_alg».proof.Proof.Gen.KernelIdeal.Points
import proofs.«425640_j24386824307099_4_alg».proof.Proof.Gen.KernelIdeal.Frame
import proofs.«425640_j24386824307099_4_alg».proof.Proof.Gen.ReferenceIdeal
import proofs.«425640_j24386824307099_4_alg».proof.Proof.Gen.ReferenceIdeal.Run
import proofs.«425640_j24386824307099_4_alg».proof.Proof.Gen.ReferenceIdeal.Read
import proofs.«425640_j24386824307099_4_alg».proof.Proof.Gen.Pre_finite_inputs
import proofs.«425640_j24386824307099_4_alg».proof.Proof.Spec
import proofs.«425640_j24386824307099_4_alg».proof.Proof.SpecSums
import proofs.«425640_j24386824307099_4_alg».proof.Proof.PreRange
import proofs.«425640_j24386824307099_4_alg».proof.Proof.KHost
import proofs.«425640_j24386824307099_4_alg».proof.Proof.KValue
import proofs.«425640_j24386824307099_4_alg».proof.Proof.RefGather
import proofs.«425640_j24386824307099_4_alg».proof.Proof.RefTotal
import Idealize.ShloMosaic.Adequacy
import Idealize.ShloMosaic.Init

set_option maxRecDepth 16384

noncomputable section

namespace Cert.Proof

open Idealize.ShloMosaic Idealize.ShloMosaic.TcCoe Idealize.SL.Sem Cert.CplxMse

/-! ## Each side's result is the loss of its arguments -/

section kernel
open Cert.KernelIdeal Cert.KernelIdeal.Gen Cert.KernelIdeal.HostPrefix Cert.KernelIdeal.HostTake Cert.KernelIdeal.Result Cert.KernelIdeal.Body

/-- The kernel: the mean of the two cores' totals is the loss of the arguments, once every index word names a table row. -/
theorem kernel_result (m : (ℓ : Loc nD τ sig) → Buf (Elt Ideal) ℓ) (c : Dev nD) (hin : InRange (words m c)) :
    mean (∑ p : Fin 2, coreSum m c p)
      = loss (argTabI m c) (argSigI m c) (argTabT m c) (argSigT m c) (words m c) (weights m c) := by
  unfold coreSum loss
  rw [sum_coreTotal, total_eq_totalPlanar (packs_s m c) (packs_a m c hin) (packs_b m c hin) (packs_c m c hin) (packs_d m c hin)]

end kernel

section reference
open Cert.ReferenceIdeal Cert.ReferenceIdeal.Gen Cert.ReferenceIdeal.Read Cert.ReferenceIdeal.Gathered Cert.ReferenceIdeal.Total

/-- The reference: its result term is the loss of the arguments, once every index word names a table row. -/
theorem reference_result (m : (ℓ : Loc nD τ sig) → Buf (Elt Ideal) ℓ) (c : Dev nD)
    (hin : InRange (m ((c.tc : Thread nD τ).loc main_arg4))) :
    Cert.ReferenceIdeal.Value.res_main_v87 m c
      = loss (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [val_main_v87_eq, result_eq, signal_eq, diff0_eq _ _ _ _ hin, diff1_eq _ _ _ _ hin, target0_eq _ _ _ hin, target1_eq _ _ _ hin]
  rfl

end reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the loss of those arguments. -/
theorem algebraic : Cert.algebraic_KernelIdeal_ReferenceIdeal := by
  intro m ρ m' ρ' hpre hagree
  have hin : ∀ c : Dev Cert.KernelIdeal.nD, InRange (Cert.KernelIdeal.HostTake.words m c) := fun c =>
    Cert.PreRange.inRange_of_pre _ _ _ _ _ _ (hpre c)
  refine ⟨fun c => loss (Cert.KernelIdeal.HostPrefix.argTabI m c) (Cert.KernelIdeal.HostPrefix.argSigI m c)
      (Cert.KernelIdeal.HostPrefix.argTabT m c) (Cert.KernelIdeal.HostPrefix.argSigT m c)
      (Cert.KernelIdeal.HostTake.words m c) (Cert.KernelIdeal.HostTake.weights m c), ?_, ?_⟩
  · refine (θ_run Cert.KernelIdeal.defs _ _).mono (fun _ h c => ⟨(h c).1.trans (kernel_result m c (hin c)), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    have hin' : InRange (m' ((c.tc : Thread Cert.ReferenceIdeal.nD Cert.ReferenceIdeal.τ).loc Cert.ReferenceIdeal.main_arg4)) := by
      rw [(hagree c).2.2.2.2.1]; exact hin c
    rw [reference_result m' c hin', (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
